-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S4096x1 : Shape := ⟨2, ![4096, 1]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x128 .f32) (main_arg2 : FVec F S4096x4096 .f32) (main_arg3 : FVec F S4096x1 .f32) (main_arg4 : FVec F S128x128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S4096x1 : Shape := ⟨2, ![4096, 1]⟩
abbrev S128x128 : Shape := ⟨2, ![128, 128]⟩
abbrev S128 : Shape := ⟨1, ![128]⟩
abbrev S1x128 : Shape := ⟨2, ![1, 128]⟩
abbrev S128x4096 : Shape := ⟨2, ![128, 4096]⟩
abbrev S512x1 : Shape := ⟨2, ![512, 1]⟩
abbrev S512x128 : Shape := ⟨2, ![512, 128]⟩
abbrev S128x1 : Shape := ⟨2, ![128, 1]⟩

abbrev nBuf : Space → Nat
  | .hbm => 8
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x1, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S512x128, .f32⟩
  | .local _ .vmem, ⟨16, _⟩ => ⟨S512x128, .f32⟩
  | .local _ .vmem, ⟨17, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S512x1_S512x1_0_0 : ∀ a, (![0, 0] : Fin 2 → Nat) a + S512x1.size a ≤ S512x1.size a
  h_S512x1 : 0 < S512x1.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x4096_S128x4096_0_0 : ∀ a, (![0, 0] : Fin 2 → Nat) a + S128x4096.size a ≤ S128x4096.size a
  h_S128x4096 : 0 < S128x4096.numel
  slices_S512x1_o0_0_S128x1 : S512x1.Slices ![0, 0] S128x1
  broadcasts_S128x1_S128x128 : S128x1.Broadcasts S128x128
  slices_S512x128_o0_0_S128x128 : S512x128.Slices ![0, 0] S128x128
  broadcasts_S1x128_S128x128 : S1x128.Broadcasts S128x128
  inb_S512x128_S128x128_0_0 : ∀ a, (![0, 0] : Fin 2 → Nat) a + S128x128.size a ≤ S512x128.size a
  slices_S512x1_o128_0_S128x1 : S512x1.Slices ![128, 0] S128x1
  slices_S512x128_o128_0_S128x128 : S512x128.Slices ![128, 0] S128x128
  inb_S512x128_S128x128_128_0 : ∀ a, (![128, 0] : Fin 2 → Nat) a + S128x128.size a ≤ S512x128.size a
  slices_S512x1_o256_0_S128x1 : S512x1.Slices ![256, 0] S128x1
  slices_S512x128_o256_0_S128x128 : S512x128.Slices ![256, 0] S128x128
  inb_S512x128_S128x128_256_0 : ∀ a, (![256, 0] : Fin 2 → Nat) a + S128x128.size a ≤ S512x128.size a
  slices_S512x1_o384_0_S128x1 : S512x1.Slices ![384, 0] S128x1
  slices_S512x128_o384_0_S128x128 : S512x128.Slices ![384, 0] S128x128
  inb_S512x128_S128x128_384_0 : ∀ a, (![384, 0] : Fin 2 → Nat) a + S128x128.size a ≤ S512x128.size a
  dot_S4096x128_S128x128_S4096x128_1_0_0_1_n_n_wf : DotDims.WF S4096x128 S128x128 S4096x128 [1] [0] [0] [1] [] []
  dot_S128x4096_S4096x128_S128x128_1_0_0_1_n_n_wf : DotDims.WF S128x4096 S4096x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S4096x1 : Shape := ⟨2, ![4096, 1]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x1, .f32⟩
  | .hbm, ⟨4, _⟩ => ⟨S128x128, .f32⟩
  | .hbm, ⟨5, _⟩ => ⟨S128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.K.Kit.lean ====
/-
  The kernel region of this program, its parts named once for the modules that follow.

  The program is one host line (the bias vector `b` of shape [128] recast as a row [1,128]) and one region on a
  grid of 8 points.  The region has ten windows: `x` whole (window 0), `W` whole (1), four windows (2 to 5) on
  the ONE adjacency array, window 2+k reading the row block 4t+k of 128 rows at point t, the row sums' block of 512
  rows (6), `y`'s block of 512 rows (7), the bias row (8), and the result's block of 512 rows (9).  Beside them the
  body keeps a scratch of shape [4096,128]: the product x·W, stored at the first point and read at every point.

  Named here: the contents the region finds (`V`: the launch memory after the host line), @main's shape up to the
  region, each window's block of those contents at a point (`iblk`), the staging buffers a point runs on, the
  body's one branch condition in closed form, and that an input window's buffer holds its block at every point.
-/
import proofs.«140851_g42314017800850_cont_8to1_b_977_13_alg».proof.Proof.Gen.Kernel.Launch
import proofs.«140851_g42314017800850_cont_8to1_b_977_13_alg».proof.Proof.Gen.Kernel.Skeleton
import proofs.«140851_g42314017800850_cont_8to1_b_977_13_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds algebra, the pipeline's own. -/
abbrev EP : Emb (UR sig nD τ) (MT nD τ sig Unit (Elt F) ℕ (UR sig nD τ) ℕ) := emb₁

/-! ## @main up to the region -/

/-- Core `c`'s buffer contents when the region is entered: the launch memory after the one host line. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; first | rfl | (repeat' constructor)

/-- @main is the host line, then the region: holding the unscoped buffers at the launch contents it reaches the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is not
    fetched its block index has not moved since the point before, and the body leaves the block in place. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The staging buffers of a point, the scratch, the branch condition -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)

/-- The scratch operand: a whole scoped buffer of the kernel's own, passed beside the windows. -/
abbrev scM : Memref sig .tc .vmem S4096x128 .f32 := Memref.whole cc0_scratch0
/-- One staging buffer of the result's window and the scratch, as views through which contents are stated. -/
abbrev VO : View sig .tc .vmem S512x128 .f32 := (Memref.whole cc0_stg9_0 : Memref sig .tc .vmem S512x128 .f32).view
abbrev VS : View sig .tc .vmem S4096x128 .f32 := (scM : Memref sig .tc .vmem S4096x128 .f32).view

/-- The body's one branch: "this is the grid's first point", as the scalar chain the body computes. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val % 8 = 0 :=
  (by decide +kernel : ∀ t : Fin grid0.N, cond0 (grid0.coords t) ↔ t.val % 8 = 0)

/-- The core's scoped buffers that are no staging buffer are the scratch alone, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Region

end
-- ==== Proof.K.RunA.lean ====
/-
  The body's run at the grid's FIRST point (the branch taken): on whole staging buffers holding the nine input
  blocks, the result's buffer and the scratch at anything, the body runs to the end, the inputs' buffers as they
  were, the scratch overwritten whole by the product of the `x` and `W` blocks, and the result's buffer
  overwritten by four stores of 128 rows each.  What those stores write is found by the run itself: the lists
  of pieces (last store first) are the witness.
-/
import proofs.«140851_g42314017800850_cont_8to1_b_977_13_alg».proof.Proof.K.Kit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result's buffer (`L10`) and in the scratch (`LS`) at the first point,
    with the body's triple over them. -/
noncomputable def runA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) :
    Σ' (L10 : List (View.Piece (Elt F) S512x128 .f32)), { LS : List (View.Piece (Elt F) S4096x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ (∃ f, a11.view.loc (c : Thread nD τ) ↦[a11.view.set]{fullShare} a11.view.writes (Elt F) f LS)) -∗ K ⟨⟩))
          ⊢ wp frame (wpE (defs₀ (F := F)) Variants.none c none) E (cc0__gcn_body i a1 h1 a2 h2 a3 h3 a4 h4 a5 h5 a6 h6 a7 h7 a8 h8 a9 h9 a10 h10 a11 h11) K } := by
  refine ⟨?_, ?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    iexists _; iexact H11

end Cert.Kernel.Region

end
-- ==== Proof.K.RunB.lean ====
/-
  The body's run at every point AFTER the first (the branch not taken): on whole staging buffers holding the nine
  input blocks, the result's buffer at anything and the scratch at given contents `xs`, the body runs to the end,
  the inputs' buffers and the scratch as they were (the body only reads the scratch here), and the result's
  buffer overwritten by four stores of 128 rows each, found by the run as a list of pieces (last store first).
-/
import proofs.«140851_g42314017800850_cont_8to1_b_977_13_alg».proof.Proof.K.Kit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result's buffer at a later point, with the body's triple over them. -/
noncomputable def runB (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) :
    { L10 : List (View.Piece (Elt F) S512x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ owns (c : Thread nD τ) a11 fullShare xs
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ owns (c : Thread nD τ) a11 fullShare xs) -∗ K ⟨⟩))
          ⊢ wp frame (wpE (defs₀ (F := F)) Variants.none c none) E (cc0__gcn_body i a1 h1 a2 h2 a3 h3 a4 h4 a5 h5 a6 h6 a7 h7 a8 h8 a9 h9 a10 h10 a11 h11) K } := by
  refine ⟨?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h11.eq_unread hf11
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    iexists _; isplitr; · ipureintro; exact h11.read_unread _
    iexact H11

end Cert.Kernel.Region

end
-- ==== Proof.K.Data.lean ====
/-
  The proof data of the region: what each window's staging buffer holds after the body at each point, and the
  invariant the body keeps between points.

  The body stores into the result's buffer by four stores of 128 rows that tile its 512 rows, at every point; so
  what it leaves there is the pieces' read-back, whatever the buffer held.  At the first point it also overwrites
  the scratch whole with the product of the `x` and `W` blocks (which are the whole arrays); at every later point
  it only reads the scratch.  Hence the invariant: before the first point the scratch holds anything; from then
  on it holds that one product, `supp`.  Every input window's buffer is left as found.
-/
import proofs.«140851_g42314017800850_cont_8to1_b_977_13_alg».proof.Proof.K.RunA
import proofs.«140851_g42314017800850_cont_8to1_b_977_13_alg».proof.Proof.K.RunB
import Idealize.ShloMosaic.Lib.Pipeline.Value

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first point's four stores tile the result's block. -/
theorem coverA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (y : S512x128.Idx) : ∃ pc ∈ (runA c i a1 h1 a2 h2 a3 h3 a4 h4 a5 h5 a6 h6 a7 h7 a8 h8 a9 h9 a10 h10 a11 h11 hc x1 x2 x3 x4 x5 x6 x7 x8 x9).1, y ∈ pc.1.set :=
  View.cover_of_tiledL (runA c i a1 h1 a2 h2 a3 h3 a4 h4 a5 h5 a6 h6 a7 h7 a8 h8 a9 h9 a10 h10 a11 h11 hc x1 x2 x3 x4 x5 x6 x7 x8 x9).1 S128x128.size (by sl_kernel_rfl) y

/-- Its one store into the scratch covers it. -/
theorem scoverA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (y : S4096x128.Idx) : ∃ pc ∈ (runA c i a1 h1 a2 h2 a3 h3 a4 h4 a5 h5 a6 h6 a7 h7 a8 h8 a9 h9 a10 h10 a11 h11 hc x1 x2 x3 x4 x5 x6 x7 x8 x9).2.1, y ∈ pc.1.set :=
  View.cover_of_tiledL (runA c i a1 h1 a2 h2 a3 h3 a4 h4 a5 h5 a6 h6 a7 h7 a8 h8 a9 h9 a10 h10 a11 h11 hc x1 x2 x3 x4 x5 x6 x7 x8 x9).2.1 S4096x128.size (by sl_kernel_rfl) y

/-- A later point's four stores tile the result's block. -/
theorem coverB (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) (y : S512x128.Idx) : ∃ pc ∈ (runB c i a1 h1 a2 h2 a3 h3 a4 h4 a5 h5 a6 h6 a7 h7 a8 h8 a9 h9 a10 h10 a11 h11 hc x1 x2 x3 x4 x5 x6 x7 x8 x9 xs).1, y ∈ pc.1.set :=
  View.cover_of_tiledL (runB c i a1 h1 a2 h2 a3 h3 a4 h4 a5 h5 a6 h6 a7 h7 a8 h8 a9 h9 a10 h10 a11 h11 hc x1 x2 x3 x4 x5 x6 x7 x8 x9 xs).1 S128x128.size (by sl_kernel_rfl) y

/-- What the first point leaves in the result's buffer: its pieces read back. -/
def outA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) : Vec F S512x128 .f32 :=
  VO.read (Elt F) (VO.writes (Elt F) VO.junk (runA c i a1 h1 a2 h2 a3 h3 a4 h4 a5 h5 a6 h6 a7 h7 a8 h8 a9 h9 a10 h10 a11 h11 hc x1 x2 x3 x4 x5 x6 x7 x8 x9).1)

/-- What the first point leaves in the scratch. -/
def soutA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) : Vec F S4096x128 .f32 :=
  VS.read (Elt F) (VS.writes (Elt F) VS.junk (runA c i a1 h1 a2 h2 a3 h3 a4 h4 a5 h5 a6 h6 a7 h7 a8 h8 a9 h9 a10 h10 a11 h11 hc x1 x2 x3 x4 x5 x6 x7 x8 x9).2.1)

/-- What a later point leaves in the result's buffer. -/
def outB (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) : Vec F S512x128 .f32 :=
  VO.read (Elt F) (VO.writes (Elt F) VO.junk (runB c i a1 h1 a2 h2 a3 h3 a4 h4 a5 h5 a6 h6 a7 h7 a8 h8 a9 h9 a10 h10 a11 h11 hc x1 x2 x3 x4 x5 x6 x7 x8 x9 xs).1)

private theorem hz2 : (![0, 0] : Fin 2 → Nat) = fun _ => 0 := by
  funext a; match a with | ⟨0, _⟩ => rfl | ⟨1, _⟩ => rfl

set_option maxHeartbeats 1600000 in
/-- The scratch after the first point is the product of the `x` block and the `W` block. -/
theorem soutA_eq (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) : soutA c i a1 h1 a2 h2 a3 h3 a4 h4 a5 h5 a6 h6 a7 h7 a8 h8 a9 h9 a10 h10 a11 h11 hc x1 x2 x3 x4 x5 x6 x7 x8 x9 = k0_pay3 x1 x2 := by
  unfold soutA
  rw [View.read_writes_eq_canon _ _ _ (scoverA c i a1 h1 a2 h2 a3 h3 a4 h4 a5 h5 a6 h6 a7 h7 a8 h8 a9 h9 a10 h10 a11 h11 hc x1 x2 x3 x4 x5 x6 x7 x8 x9)]
  unfold runA; dsimp only
  sl_unfold_words
  rw [View.canon_unit_zero hz2]
  simp only [View.readAt_eq_ld, h1.read_unread, h2.read_unread, View.ld_unit_zero (S := S4096x128) hz2, View.ld_unit_zero (S := S128x128) hz2]

/-! ## The product the scratch carries -/

/-- The product of the `x` block and the `W` block at the first point (the whole arrays): what the scratch holds
    from the first point on. -/
def supp (c : Dev nD) : Vec F S4096x128 .f32 := k0_pay3 (iblk m c 0 t0_0) (iblk m c 1 t0_0)

/-- What the body leaves in the result's buffer at point `t`: the first point's pieces there, a later point's
    elsewhere, the scratch then holding `supp`. -/
def outAt (c : Dev nD) (t : Fin cfg0.N) : Vec F S512x128 .f32 :=
  if h : t.val % 8 = 0 then
    outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t)
  else
    outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h ((hcond0 t).mp hh)) (iblk m c 0 t) (iblk m c 1 t) (iblk m c 2 t) (iblk m c 3 t) (iblk m c 4 t) (iblk m c 5 t) (iblk m c 6 t) (iblk m c 7 t) (iblk m c 8 t) (supp m c)

/-- The invariant before position `n`: before the first point the scratch at anything; afterwards at `supp`. -/
def PhiS (c : Dev nD) : ℕ → sProp 𝕄
  | 0 => iprop(∃ d, owns (c : Thread nD τ) scM fullShare d)
  | _ + 1 => owns (c : Thread nD τ) scM fullShare (supp m c)

/-! ## The proof data -/

/-- The proof data on core `c`: the arrays as the region finds them; after the body each input's buffer at its
    block and the result's at `outAt`; the invariant `PhiS`; nothing owed; the adjacency array's share dealt in
    quarters to its four windows, every other input held at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q w := match w with
    | ⟨2, _⟩ => fullShare.left.left
    | ⟨3, _⟩ => fullShare.left.right
    | ⟨4, _⟩ => fullShare.right.left
    | ⟨5, _⟩ => fullShare.right.right
    | ⟨0, _⟩ => fullShare
    | ⟨1, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

theorem PhiS_pos (c : Dev nD) (n : ℕ) (hn : n ≠ 0) : PhiS m c n = owns (c : Thread nD τ) scM fullShare (supp m c) := by
  cases n with
  | zero => exact absurd rfl hn
  | succ n => rfl

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = owns (c : Thread nD τ) scM fullShare (supp m c) := rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point.  The inputs' buffers hold their blocks; at the first point the scratch holds anything
    and is left at the product of the two blocks there, which is `supp`; at a later point it holds `supp` and is
    left so; the result's buffer is left at its four pieces' read-back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [Phi_succ, Phi_castSucc]
  rw [show (dats m 0 c).leavesExact 0 t = owns (c : Thread nD τ) (ms0 t) fullShare (iblk m c 0 t) from by
    unfold Dat.leavesExact; rw [after0]]
  rw [show (dats m 0 c).leavesExact 1 t = owns (c : Thread nD τ) (ms1 t) fullShare (iblk m c 1 t) from by
    unfold Dat.leavesExact; rw [after1]]
  rw [show (dats m 0 c).leavesExact 2 t = owns (c : Thread nD τ) (ms2 t) fullShare (iblk m c 2 t) from by
    unfold Dat.leavesExact; rw [after2]]
  rw [show (dats m 0 c).leavesExact 3 t = owns (c : Thread nD τ) (ms3 t) fullShare (iblk m c 3 t) from by
    unfold Dat.leavesExact; rw [after3]]
  rw [show (dats m 0 c).leavesExact 4 t = owns (c : Thread nD τ) (ms4 t) fullShare (iblk m c 4 t) from by
    unfold Dat.leavesExact; rw [after4]]
  rw [show (dats m 0 c).leavesExact 5 t = owns (c : Thread nD τ) (ms5 t) fullShare (iblk m c 5 t) from by
    unfold Dat.leavesExact; rw [after5]]
  rw [show (dats m 0 c).leavesExact 6 t = owns (c : Thread nD τ) (ms6 t) fullShare (iblk m c 6 t) from by
    unfold Dat.leavesExact; rw [after6]]
  rw [show (dats m 0 c).leavesExact 7 t = owns (c : Thread nD τ) (ms7 t) fullShare (iblk m c 7 t) from by
    unfold Dat.leavesExact; rw [after7]]
  rw [show (dats m 0 c).leavesExact 8 t = owns (c : Thread nD τ) (ms8 t) fullShare (iblk m c 8 t) from by
    unfold Dat.leavesExact; rw [after8]]
  rw [show (dats m 0 c).leavesExact 9 t = owns (c : Thread nD τ) (ms9 t) fullShare (outAt m c t) from by
    unfold Dat.leavesExact; rw [after9]]
  have hN : t.val < 8 := lt_of_lt_of_eq t.isLt (show cfg0.N = 8 from N_0)
  by_cases h0 : t.val % 8 = 0
  · have ht : t = t0_0 := Fin.ext (by simp only [t0_0]; omega)
    have hs : supp m c = k0_pay3 (iblk m c 0 t) (iblk m c 1 t) := by rw [ht]; rfl
    rw [show PhiS m c t.val = iprop(∃ d, owns (c : Thread nD τ) scM fullShare d) from by rw [ht]; rfl]
    unfold outAt; rw [dif_pos h0]; unfold outA
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, ⟨%e9, H9⟩, ⟨%es, HS⟩⟩
    isplitl [HS]
    · unfold owns; iexists _; isplitr
      swap; · iexact HS
      ipureintro
      rw [hs]
      exact (View.read_writes_of_cover _ _ _ _ _ (scoverA c _ _ _ _ _ _ _ _ _ _ _ _ _ _ _ _ _ _ _ _ _ _ _ _ _ _ _ _ _ _ _ _ _)).trans (soutA_eq c _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverA c _ _ _ _ _ _ _ _ _ _ _ _ _ _ _ _ _ _ _ _ _ _ _ _ _ _ _ _ _ _ _ _ _)
  · rw [PhiS_pos m c t.val (fun hz => h0 (by rw [hz]))]
    unfold outAt; rw [dif_neg h0]; unfold outB
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h0 ((hcond0 t).mp hh)) (iblk m c 0 t) (iblk m c 1 t) (iblk m c 2 t) (iblk m c 3 t) (iblk m c 4 t) (iblk m c 5 t) (iblk m c 6 t) (iblk m c 7 t) (iblk m c 8 t) (supp m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, ⟨%e9, H9⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB c _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch at anything is the invariant before the first point, -/
theorem hin (c : Dev nD) : iprop((emp : sProp 𝕄) ∗ Pipeline.scopedRest spec0 c) ⊢ (dats m 0 c).Φ 0 := by
  rw [scopedRest_scratch, show (dats m 0 c).Φ 0 = iprop(∃ d, owns (c : Thread nD τ) scM fullShare d) from rfl]
  iintro ⟨-, H⟩; iexact H

/-- and after the last point the invariant gives it back, its contents forgotten. -/
theorem hout (c : Dev nD) : (dats m 0 c).Φ (Fin.last cfg0.N) ⊢ iprop((emp : sProp 𝕄) ∗ Pipeline.scopedRest spec0 c) := by
  rw [scopedRest_scratch]
  rw [show (dats m 0 c).Φ (Fin.last cfg0.N) = owns (c : Thread nD τ) scM fullShare (supp m c) from rfl]
  iintro H
  isplitr; · iempintro
  iexists _; iexact H

end Cert.Kernel.Region

end
-- ==== Proof.K.Shares.lean ====
/-
  One array behind four windows: how its full share is dealt.

  Windows 2 to 5 all read the adjacency array.  The launch hands the pipeline each DISTINCT array buffer once, whole,
  at the full share; the pipeline wants one holding per WINDOW.  The adjacency array's full share is halved and each
  half halved again, one quarter per window; every other window holds its own array at the full share (the result's
  window holds its array outright).
-/
import proofs.«140851_g42314017800850_cont_8to1_b_977_13_alg».proof.Proof.K.Kit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer held at a share is the same buffer held at the share's two halves. -/
private theorem pointsTo_halves (ℓ : Loc nD τ sig) (q : PosShare TreeShare) (f : Buf (Elt F) ℓ) :
    (ℓ ↦{q} f : sProp 𝕄) ⊢ iprop((ℓ ↦{q.left} f) ∗ ℓ ↦{q.right} f) :=
  (pointsTo_share (ℓ := ℓ) (I := Finset.univ) (f := f) (Ix := Unit) (Name := ℕ) (U := UR sig nD τ) (Lvl := ℕ)
    (PosShare.mem_left_op_right q)).1

/-- The full share of a whole buffer dealt in four quarters: halved, and each half halved again. -/
private theorem pointsTo_quarters (ℓ : Loc nD τ sig) (f : Buf (Elt F) ℓ) :
    (ℓ ↦{fullShare} f : sProp 𝕄) ⊢
      iprop((ℓ ↦{fullShare.left.left} f) ∗ (ℓ ↦{fullShare.left.right} f) ∗ (ℓ ↦{fullShare.right.left} f) ∗ ℓ ↦{fullShare.right.right} f) := by
  iintro H
  ihave H := pointsTo_halves ℓ fullShare f $$ H
  icases H with ⟨HL, HR⟩
  ihave HL := pointsTo_halves ℓ fullShare.left f $$ HL
  icases HL with ⟨HLL, HLR⟩
  ihave HR := pointsTo_halves ℓ fullShare.right f $$ HR
  icases HR with ⟨HRL, HRR⟩
  isplitl [HLL]; · iexact HLL
  isplitl [HLR]; · iexact HLR
  isplitl [HRL]; · iexact HRL
  iexact HRR

/-- The distinct array buffers, each whole at the full share at contents `Vc`, are the proof data's per-window
    holdings at the region's entry, when the data deal the adjacency array's share in quarters to windows 2 to 5,
    hold every other input at the full share, and have each window's entry contents read off `Vc`. -/
theorem arrays_of_arrBufs {c : Dev nD} (dat : Dat τ (Elt F) Unit ℕ (UR sig nD τ) ℕ cfg0 c)
    (hq2 : dat.q 2 = fullShare.left.left) (hq3 : dat.q 3 = fullShare.left.right)
    (hq4 : dat.q 4 = fullShare.right.left) (hq5 : dat.q 5 = fullShare.right.right)
    (hq0 : dat.q 0 = fullShare) (hq1 : dat.q 1 = fullShare) (hq6 : dat.q 6 = fullShare) (hq7 : dat.q 7 = fullShare) (hq8 : dat.q 8 = fullShare)
    (Vc : (b : Ref sig .tc) → Buf (Elt F) ((c : Thread nD τ).loc b))
    (hA : ∀ w, dat.A w = Vc (Pipeline.arrRef spec0 w)) :
    (Pipeline.arrBufs (Ix := Unit) (Name := ℕ) (U := UR sig nD τ) (Lvl := ℕ) spec0 c Vc : sProp 𝕄) ⊢ dat.arrays (dat.arrAt · 0) := by
  classical
  -- The seven distinct buffers behind the ten windows, one by one.
  have hL : (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg4) ↦{fullShare} Vc main_arg4)
          ∗ (((c : Thread nD τ).loc main_arg2) ↦{fullShare} Vc main_arg2) ∗ (((c : Thread nD τ).loc main_arg3) ↦{fullShare} Vc main_arg3)
          ∗ (((c : Thread nD τ).loc main_arg1) ↦{fullShare} Vc main_arg1) ∗ (((c : Thread nD τ).loc main_v0) ↦{fullShare} Vc main_v0)
          ∗ (((c : Thread nD τ).loc main_v1) ↦{fullShare} Vc main_v1)) := by
    unfold Pipeline.arrBufs
    exact bigSep_eq_bigSepL_of_eq [main_arg0, main_arg4, main_arg2, main_arg3, main_arg1, main_v0, main_v1] (by decide) (by decide) _
  -- A window's holding: its array is a whole buffer, and its entry contents are `Vc` read at the array's buffer.
  have hw : ∀ w : Fin 10, (((cfg0.win w).arr.view.loc (c : Thread nD τ)) ↦[(cfg0.win w).arr.view.set]{dat.share w} dat.arrAt w 0 : sProp 𝕄)
      = (((c : Thread nD τ).loc (Pipeline.arrRef spec0 w)) ↦{dat.share w} Vc (Pipeline.arrRef spec0 w)) := fun w => by
    rw [(Gen.arr_whole0 w).set_eq_univ]
    show (_ ↦{_} dat.A w) = _
    rw [hA w]
  -- The share each window holds its array at: an input's is the data's own, the result's is the full share.
  have hs0 : dat.share 0 = fullShare := (if_neg (show ¬ (cfg0.win 0).isOut = true from Bool.false_ne_true)).trans hq0
  have hs1 : dat.share 1 = fullShare := (if_neg (show ¬ (cfg0.win 1).isOut = true from Bool.false_ne_true)).trans hq1
  have hs2 : dat.share 2 = fullShare.left.left := (if_neg (show ¬ (cfg0.win 2).isOut = true from Bool.false_ne_true)).trans hq2
  have hs3 : dat.share 3 = fullShare.left.right := (if_neg (show ¬ (cfg0.win 3).isOut = true from Bool.false_ne_true)).trans hq3
  have hs4 : dat.share 4 = fullShare.right.left := (if_neg (show ¬ (cfg0.win 4).isOut = true from Bool.false_ne_true)).trans hq4
  have hs5 : dat.share 5 = fullShare.right.right := (if_neg (show ¬ (cfg0.win 5).isOut = true from Bool.false_ne_true)).trans hq5
  have hs6 : dat.share 6 = fullShare := (if_neg (show ¬ (cfg0.win 6).isOut = true from Bool.false_ne_true)).trans hq6
  have hs7 : dat.share 7 = fullShare := (if_neg (show ¬ (cfg0.win 7).isOut = true from Bool.false_ne_true)).trans hq7
  have hs8 : dat.share 8 = fullShare := (if_neg (show ¬ (cfg0.win 8).isOut = true from Bool.false_ne_true)).trans hq8
  have hs9 : dat.share 9 = fullShare := if_pos (show (cfg0.win 9).isOut = true from rfl)
  rw [hL]
  unfold Dat.arrays
  rw [Gen.bigSep_W0, hw 0, hw 1, hw 2, hw 3, hw 4, hw 5, hw 6, hw 7, hw 8, hw 9, hs0, hs1, hs2, hs3, hs4, hs5, hs6, hs7, hs8, hs9]
  -- Windows 2 to 5 take a quarter each of the adjacency array's one full share; every other buffer goes to its one window.
  iintro ⟨H0, H4, H2, H3, H1, Hv0, Hv1⟩
  ihave H2 := pointsTo_quarters ((c : Thread nD τ).loc main_arg2) (Vc main_arg2) $$ H2
  icases H2 with ⟨H2a, H2b, H2c, H2d⟩
  isplitl [H0]; · iexact H0
  isplitl [H4]; · iexact H4
  isplitl [H2a]; · iexact H2a
  isplitl [H2b]; · iexact H2b
  isplitl [H2c]; · iexact H2c
  isplitl [H2d]; · iexact H2d
  isplitl [H3]; · iexact H3
  isplitl [H1]; · iexact H1
  isplitl [Hv0]; · iexact Hv0
  iexact Hv1

end Cert.Kernel.Region

end
-- ==== Proof.K.Entry.lean ====
/-
  The arrays as the region finds them.  The one host line before the region writes only the bias row (the bias
  vector recast to shape [1,128]); the six argument arrays are as launched, and entry (0, j) of the bias row is
  entry j of the bias vector.
-/
import proofs.«140851_g42314017800850_cont_8to1_b_977_13_alg».proof.Proof.K.Kit
import Idealize.ShloMosaic.Lib.StableHlo.Run
import Idealize.ShloMosaic.Lib.Pipeline.Value
import Idealize.ShloMosaic.Lib.ValueIdx

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem V_arg0 (c : Dev nD) : V m c main_arg0 = m ((c : Thread nD τ).loc main_arg0) := by
  show StableHlo.after hostOps0 (fun b => m (c, b)) (Proc.devRef .tc main_arg0) = _
  first | rfl | (after_results <;> rfl)
theorem V_arg1 (c : Dev nD) : V m c main_arg1 = m ((c : Thread nD τ).loc main_arg1) := by
  show StableHlo.after hostOps0 (fun b => m (c, b)) (Proc.devRef .tc main_arg1) = _
  first | rfl | (after_results <;> rfl)
theorem V_arg2 (c : Dev nD) : V m c main_arg2 = m ((c : Thread nD τ).loc main_arg2) := by
  show StableHlo.after hostOps0 (fun b => m (c, b)) (Proc.devRef .tc main_arg2) = _
  first | rfl | (after_results <;> rfl)
theorem V_arg3 (c : Dev nD) : V m c main_arg3 = m ((c : Thread nD τ).loc main_arg3) := by
  show StableHlo.after hostOps0 (fun b => m (c, b)) (Proc.devRef .tc main_arg3) = _
  first | rfl | (after_results <;> rfl)
theorem V_arg4 (c : Dev nD) : V m c main_arg4 = m ((c : Thread nD τ).loc main_arg4) := by
  show StableHlo.after hostOps0 (fun b => m (c, b)) (Proc.devRef .tc main_arg4) = _
  first | rfl | (after_results <;> rfl)
theorem V_arg5 (c : Dev nD) : V m c main_arg5 = m ((c : Thread nD τ).loc main_arg5) := by
  show StableHlo.after hostOps0 (fun b => m (c, b)) (Proc.devRef .tc main_arg5) = _
  first | rfl | (after_results <;> rfl)

/-- The bias row at the region's entry is the launch bias vector recast. -/
theorem V_v0 (c : Dev nD) : V m c main_v0 = shapeCast S1x128 (m ((c : Thread nD τ).loc main_arg5)) shapeCasts_S128_S1x128 := by
  show StableHlo.after hostOps0 (fun b => m (c, b)) (Proc.devRef .tc main_v0) = _
  first | rfl | (after_results <;> rfl)

/-- Entry (0, j) of the bias row is entry j of the bias vector. -/
theorem V_v0_apply (c : Dev nD) (j : Fin 128) :
    V m c main_v0 (ix2 (0 : Fin 1) j) = m ((c : Thread nD τ).loc main_arg5) (ix1 j) := by
  rw [V_v0]
  refine (shapeCast_addUnit_apply (n := 1) ![128] _ _ (ix2 (0 : Fin 1) j)).trans ?_
  exact congrArg _ (funext fun a => by match a with | ⟨0, _⟩ => rfl)

end Cert.Kernel.Region

end
-- ==== Proof.K.Launch.lean ====
/-
  The launch: every weakly fair execution of @main terminates, each window's array ends at what the pipeline's
  write-backs make of it, and the one unscoped buffer that is no window's array (the bias vector) ends unchanged.

  One array stands behind four windows, so the launch is the library's form for shared input arrays: the distinct
  array buffers are dealt to the windows (the adjacency array's share in quarters), the scratch enters the
  invariant at anything and leaves it forgotten, and the bias vector bypasses the region.
-/
import proofs.«140851_g42314017800850_cont_8to1_b_977_13_alg».proof.Proof.K.Data
import proofs.«140851_g42314017800850_cont_8to1_b_977_13_alg».proof.Proof.K.Shares
import proofs.«140851_g42314017800850_cont_8to1_b_977_13_alg».proof.Proof.K.Entry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounds algebra's launch element: every staging cell's owner at round 0 and a duty token for every transfer
    the pipeline issues. -/
def u₀ : UR sig nD τ := initOf (Pipeline.cells cfgs cellOf_inj) (Pipeline.launchToks cfgs cellOf_inj)

/-- What the run ends in: every window's array at the library's `arrAt … N`, every bypassing buffer as the region
    found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := fun c => arrays_of_arrBufs (dats m 0 c) rfl rfl rfl rfl rfl rfl rfl rfl rfl (V m c) (A_eq m c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- info: 'Cert.Kernel.Region.run_main' depends on axioms: [propext, Classical.choice, Quot.sound] -/
#guard_msgs in #print axioms run_main

/-! ## The argument arrays end unchanged -/

/-- The six argument arrays end as they began.  `x`, `W`, the adjacency array, the row sums and `y` are input
    windows' arrays, never written; the bias vector is no window's array and bypasses the region. -/
theorem kept (r : PUnit × MemSt nD τ sig (Elt F)) (h : RunPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_arg0 m c))),
   ((h c).1 7).trans (((dats m 0 c).arrAt_in 7 rfl _).trans ((A_eq m c 7).trans (V_arg1 m c))),
   ((h c).1 2).trans (((dats m 0 c).arrAt_in 2 rfl _).trans ((A_eq m c 2).trans (V_arg2 m c))),
   ((h c).1 6).trans (((dats m 0 c).arrAt_in 6 rfl _).trans ((A_eq m c 6).trans (V_arg3 m c))),
   ((h c).1 1).trans (((dats m 0 c).arrAt_in 1 rfl _).trans ((A_eq m c 1).trans (V_arg4 m c))),
   ((h c).2 main_arg5 (Pipeline.mem_restRefs_of main_arg5 rfl (by decide))).trans (V_arg5 m c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept m r h c) (run_main m ρ)

end Cert.Kernel.Region

end
-- ==== Proof.KI.Kit.lean ====
/-
  The kernel region of this program, its parts named once for the modules that follow.

  The program is one host line (the bias vector `b` of shape [128] recast as a row [1,128]) and one region on a
  grid of 8 points.  The region has ten windows: `x` whole (window 0), `W` whole (1), four windows (2 to 5) on
  the ONE adjacency array, window 2+k reading the row block 4t+k of 128 rows at point t, the row sums' block of 512
  rows (6), `y`'s block of 512 rows (7), the bias row (8), and the result's block of 512 rows (9).  Beside them the
  body keeps a scratch of shape [4096,128]: the product x·W, stored at the first point and read at every point.

  Named here: the contents the region finds (`V`: the launch memory after the host line), @main's shape up to the
  region, each window's block of those contents at a point (`iblk`), the staging buffers a point runs on, the
  body's one branch condition in closed form, and that an input window's buffer holds its block at every point.
-/
import proofs.«140851_g42314017800850_cont_8to1_b_977_13_alg».proof.Proof.Gen.KernelIdeal.Launch
import proofs.«140851_g42314017800850_cont_8to1_b_977_13_alg».proof.Proof.Gen.KernelIdeal.Skeleton
import proofs.«140851_g42314017800850_cont_8to1_b_977_13_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds algebra, the pipeline's own. -/
abbrev EP : Emb (UR sig nD τ) (MT nD τ sig Unit (Elt F) ℕ (UR sig nD τ) ℕ) := emb₁

/-! ## @main up to the region -/

/-- Core `c`'s buffer contents when the region is entered: the launch memory after the one host line. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; first | rfl | (repeat' constructor)

/-- @main is the host line, then the region: holding the unscoped buffers at the launch contents it reaches the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is not
    fetched its block index has not moved since the point before, and the body leaves the block in place. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The staging buffers of a point, the scratch, the branch condition -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)

/-- The scratch operand: a whole scoped buffer of the kernel's own, passed beside the windows. -/
abbrev scM : Memref sig .tc .vmem S4096x128 .f32 := Memref.whole cc0_scratch0
/-- One staging buffer of the result's window and the scratch, as views through which contents are stated. -/
abbrev VO : View sig .tc .vmem S512x128 .f32 := (Memref.whole cc0_stg9_0 : Memref sig .tc .vmem S512x128 .f32).view
abbrev VS : View sig .tc .vmem S4096x128 .f32 := (scM : Memref sig .tc .vmem S4096x128 .f32).view

/-- The body's one branch: "this is the grid's first point", as the scalar chain the body computes. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val % 8 = 0 :=
  (by decide +kernel : ∀ t : Fin grid0.N, cond0 (grid0.coords t) ↔ t.val % 8 = 0)

/-- The core's scoped buffers that are no staging buffer are the scratch alone, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Region

end
-- ==== Proof.KI.RunA.lean ====
/-
  The body's run at the grid's FIRST point (the branch taken): on whole staging buffers holding the nine input
  blocks, the result's buffer and the scratch at anything, the body runs to the end, the inputs' buffers as they
  were, the scratch overwritten whole by the product of the `x` and `W` blocks, and the result's buffer
  overwritten by four stores of 128 rows each.  What those stores write is found by the run itself: the lists
  of pieces (last store first) are the witness.
-/
import proofs.«140851_g42314017800850_cont_8to1_b_977_13_alg».proof.Proof.KI.Kit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result's buffer (`L10`) and in the scratch (`LS`) at the first point,
    with the body's triple over them. -/
noncomputable def runA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) :
    Σ' (L10 : List (View.Piece (Elt F) S512x128 .f32)), { LS : List (View.Piece (Elt F) S4096x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ (∃ f, a11.view.loc (c : Thread nD τ) ↦[a11.view.set]{fullShare} a11.view.writes (Elt F) f LS)) -∗ K ⟨⟩))
          ⊢ wp frame (wpE (defs₀ (F := F)) Variants.none c none) E (cc0__gcn_body i a1 h1 a2 h2 a3 h3 a4 h4 a5 h5 a6 h6 a7 h7 a8 h8 a9 h9 a10 h10 a11 h11) K } := by
  refine ⟨?_, ?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    iexists _; iexact H11

end Cert.KernelIdeal.Region

end
-- ==== Proof.KI.RunB.lean ====
/-
  The body's run at every point AFTER the first (the branch not taken): on whole staging buffers holding the nine
  input blocks, the result's buffer at anything and the scratch at given contents `xs`, the body runs to the end,
  the inputs' buffers and the scratch as they were (the body only reads the scratch here), and the result's
  buffer overwritten by four stores of 128 rows each, found by the run as a list of pieces (last store first).
-/
import proofs.«140851_g42314017800850_cont_8to1_b_977_13_alg».proof.Proof.KI.Kit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result's buffer at a later point, with the body's triple over them. -/
noncomputable def runB (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) :
    { L10 : List (View.Piece (Elt F) S512x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ owns (c : Thread nD τ) a11 fullShare xs
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ owns (c : Thread nD τ) a11 fullShare xs) -∗ K ⟨⟩))
          ⊢ wp frame (wpE (defs₀ (F := F)) Variants.none c none) E (cc0__gcn_body i a1 h1 a2 h2 a3 h3 a4 h4 a5 h5 a6 h6 a7 h7 a8 h8 a9 h9 a10 h10 a11 h11) K } := by
  refine ⟨?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h11.eq_unread hf11
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    iexists _; isplitr; · ipureintro; exact h11.read_unread _
    iexact H11

end Cert.KernelIdeal.Region

end
-- ==== Proof.KI.Data.lean ====
/-
  The proof data of the region: what each window's staging buffer holds after the body at each point, and the
  invariant the body keeps between points.

  The body stores into the result's buffer by four stores of 128 rows that tile its 512 rows, at every point; so
  what it leaves there is the pieces' read-back, whatever the buffer held.  At the first point it also overwrites
  the scratch whole with the product of the `x` and `W` blocks (which are the whole arrays); at every later point
  it only reads the scratch.  Hence the invariant: before the first point the scratch holds anything; from then
  on it holds that one product, `supp`.  Every input window's buffer is left as found.
-/
import proofs.«140851_g42314017800850_cont_8to1_b_977_13_alg».proof.Proof.KI.RunA
import proofs.«140851_g42314017800850_cont_8to1_b_977_13_alg».proof.Proof.KI.RunB
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first point's four stores tile the result's block. -/
theorem coverA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (y : S512x128.Idx) : ∃ pc ∈ (runA c i a1 h1 a2 h2 a3 h3 a4 h4 a5 h5 a6 h6 a7 h7 a8 h8 a9 h9 a10 h10 a11 h11 hc x1 x2 x3 x4 x5 x6 x7 x8 x9).1, y ∈ pc.1.set :=
  View.cover_of_tiledL (runA c i a1 h1 a2 h2 a3 h3 a4 h4 a5 h5 a6 h6 a7 h7 a8 h8 a9 h9 a10 h10 a11 h11 hc x1 x2 x3 x4 x5 x6 x7 x8 x9).1 S128x128.size (by sl_kernel_rfl) y

/-- Its one store into the scratch covers it. -/
theorem scoverA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (y : S4096x128.Idx) : ∃ pc ∈ (runA c i a1 h1 a2 h2 a3 h3 a4 h4 a5 h5 a6 h6 a7 h7 a8 h8 a9 h9 a10 h10 a11 h11 hc x1 x2 x3 x4 x5 x6 x7 x8 x9).2.1, y ∈ pc.1.set :=
  View.cover_of_tiledL (runA c i a1 h1 a2 h2 a3 h3 a4 h4 a5 h5 a6 h6 a7 h7 a8 h8 a9 h9 a10 h10 a11 h11 hc x1 x2 x3 x4 x5 x6 x7 x8 x9).2.1 S4096x128.size (by sl_kernel_rfl) y

/-- A later point's four stores tile the result's block. -/
theorem coverB (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) (y : S512x128.Idx) : ∃ pc ∈ (runB c i a1 h1 a2 h2 a3 h3 a4 h4 a5 h5 a6 h6 a7 h7 a8 h8 a9 h9 a10 h10 a11 h11 hc x1 x2 x3 x4 x5 x6 x7 x8 x9 xs).1, y ∈ pc.1.set :=
  View.cover_of_tiledL (runB c i a1 h1 a2 h2 a3 h3 a4 h4 a5 h5 a6 h6 a7 h7 a8 h8 a9 h9 a10 h10 a11 h11 hc x1 x2 x3 x4 x5 x6 x7 x8 x9 xs).1 S128x128.size (by sl_kernel_rfl) y

/-- What the first point leaves in the result's buffer: its pieces read back. -/
def outA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) : Vec F S512x128 .f32 :=
  VO.read (Elt F) (VO.writes (Elt F) VO.junk (runA c i a1 h1 a2 h2 a3 h3 a4 h4 a5 h5 a6 h6 a7 h7 a8 h8 a9 h9 a10 h10 a11 h11 hc x1 x2 x3 x4 x5 x6 x7 x8 x9).1)

/-- What the first point leaves in the scratch. -/
def soutA (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) : Vec F S4096x128 .f32 :=
  VS.read (Elt F) (VS.writes (Elt F) VS.junk (runA c i a1 h1 a2 h2 a3 h3 a4 h4 a5 h5 a6 h6 a7 h7 a8 h8 a9 h9 a10 h10 a11 h11 hc x1 x2 x3 x4 x5 x6 x7 x8 x9).2.1)

/-- What a later point leaves in the result's buffer. -/
def outB (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) : Vec F S512x128 .f32 :=
  VO.read (Elt F) (VO.writes (Elt F) VO.junk (runB c i a1 h1 a2 h2 a3 h3 a4 h4 a5 h5 a6 h6 a7 h7 a8 h8 a9 h9 a10 h10 a11 h11 hc x1 x2 x3 x4 x5 x6 x7 x8 x9 xs).1)

private theorem hz2 : (![0, 0] : Fin 2 → Nat) = fun _ => 0 := by
  funext a; match a with | ⟨0, _⟩ => rfl | ⟨1, _⟩ => rfl

set_option maxHeartbeats 1600000 in
/-- The scratch after the first point is the product of the `x` block and the `W` block. -/
theorem soutA_eq (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i)
    (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) : soutA c i a1 h1 a2 h2 a3 h3 a4 h4 a5 h5 a6 h6 a7 h7 a8 h8 a9 h9 a10 h10 a11 h11 hc x1 x2 x3 x4 x5 x6 x7 x8 x9 = k0_pay3 x1 x2 := by
  unfold soutA
  rw [View.read_writes_eq_canon _ _ _ (scoverA c i a1 h1 a2 h2 a3 h3 a4 h4 a5 h5 a6 h6 a7 h7 a8 h8 a9 h9 a10 h10 a11 h11 hc x1 x2 x3 x4 x5 x6 x7 x8 x9)]
  unfold runA; dsimp only
  sl_unfold_words
  rw [View.canon_unit_zero hz2]
  simp only [View.readAt_eq_ld, h1.read_unread, h2.read_unread, View.ld_unit_zero (S := S4096x128) hz2, View.ld_unit_zero (S := S128x128) hz2]

/-! ## The product the scratch carries -/

/-- The product of the `x` block and the `W` block at the first point (the whole arrays): what the scratch holds
    from the first point on. -/
def supp (c : Dev nD) : Vec F S4096x128 .f32 := k0_pay3 (iblk m c 0 t0_0) (iblk m c 1 t0_0)

/-- What the body leaves in the result's buffer at point `t`: the first point's pieces there, a later point's
    elsewhere, the scratch then holding `supp`. -/
def outAt (c : Dev nD) (t : Fin cfg0.N) : Vec F S512x128 .f32 :=
  if h : t.val % 8 = 0 then
    outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t)
  else
    outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h ((hcond0 t).mp hh)) (iblk m c 0 t) (iblk m c 1 t) (iblk m c 2 t) (iblk m c 3 t) (iblk m c 4 t) (iblk m c 5 t) (iblk m c 6 t) (iblk m c 7 t) (iblk m c 8 t) (supp m c)

/-- The invariant before position `n`: before the first point the scratch at anything; afterwards at `supp`. -/
def PhiS (c : Dev nD) : ℕ → sProp 𝕄
  | 0 => iprop(∃ d, owns (c : Thread nD τ) scM fullShare d)
  | _ + 1 => owns (c : Thread nD τ) scM fullShare (supp m c)

/-! ## The proof data -/

/-- The proof data on core `c`: the arrays as the region finds them; after the body each input's buffer at its
    block and the result's at `outAt`; the invariant `PhiS`; nothing owed; the adjacency array's share dealt in
    quarters to its four windows, every other input held at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val
  q w := match w with
    | ⟨2, _⟩ => fullShare.left.left
    | ⟨3, _⟩ => fullShare.left.right
    | ⟨4, _⟩ => fullShare.right.left
    | ⟨5, _⟩ => fullShare.right.right
    | ⟨0, _⟩ => fullShare
    | ⟨1, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

theorem PhiS_pos (c : Dev nD) (n : ℕ) (hn : n ≠ 0) : PhiS m c n = owns (c : Thread nD τ) scM fullShare (supp m c) := by
  cases n with
  | zero => exact absurd rfl hn
  | succ n => rfl

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = owns (c : Thread nD τ) scM fullShare (supp m c) := rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point.  The inputs' buffers hold their blocks; at the first point the scratch holds anything
    and is left at the product of the two blocks there, which is `supp`; at a later point it holds `supp` and is
    left so; the result's buffer is left at its four pieces' read-back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [Phi_succ, Phi_castSucc]
  rw [show (dats m 0 c).leavesExact 0 t = owns (c : Thread nD τ) (ms0 t) fullShare (iblk m c 0 t) from by
    unfold Dat.leavesExact; rw [after0]]
  rw [show (dats m 0 c).leavesExact 1 t = owns (c : Thread nD τ) (ms1 t) fullShare (iblk m c 1 t) from by
    unfold Dat.leavesExact; rw [after1]]
  rw [show (dats m 0 c).leavesExact 2 t = owns (c : Thread nD τ) (ms2 t) fullShare (iblk m c 2 t) from by
    unfold Dat.leavesExact; rw [after2]]
  rw [show (dats m 0 c).leavesExact 3 t = owns (c : Thread nD τ) (ms3 t) fullShare (iblk m c 3 t) from by
    unfold Dat.leavesExact; rw [after3]]
  rw [show (dats m 0 c).leavesExact 4 t = owns (c : Thread nD τ) (ms4 t) fullShare (iblk m c 4 t) from by
    unfold Dat.leavesExact; rw [after4]]
  rw [show (dats m 0 c).leavesExact 5 t = owns (c : Thread nD τ) (ms5 t) fullShare (iblk m c 5 t) from by
    unfold Dat.leavesExact; rw [after5]]
  rw [show (dats m 0 c).leavesExact 6 t = owns (c : Thread nD τ) (ms6 t) fullShare (iblk m c 6 t) from by
    unfold Dat.leavesExact; rw [after6]]
  rw [show (dats m 0 c).leavesExact 7 t = owns (c : Thread nD τ) (ms7 t) fullShare (iblk m c 7 t) from by
    unfold Dat.leavesExact; rw [after7]]
  rw [show (dats m 0 c).leavesExact 8 t = owns (c : Thread nD τ) (ms8 t) fullShare (iblk m c 8 t) from by
    unfold Dat.leavesExact; rw [after8]]
  rw [show (dats m 0 c).leavesExact 9 t = owns (c : Thread nD τ) (ms9 t) fullShare (outAt m c t) from by
    unfold Dat.leavesExact; rw [after9]]
  have hN : t.val < 8 := lt_of_lt_of_eq t.isLt (show cfg0.N = 8 from N_0)
  by_cases h0 : t.val % 8 = 0
  · have ht : t = t0_0 := Fin.ext (by simp only [t0_0]; omega)
    have hs : supp m c = k0_pay3 (iblk m c 0 t) (iblk m c 1 t) := by rw [ht]; rfl
    rw [show PhiS m c t.val = iprop(∃ d, owns (c : Thread nD τ) scM fullShare d) from by rw [ht]; rfl]
    unfold outAt; rw [dif_pos h0]; unfold outA
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, ⟨%e9, H9⟩, ⟨%es, HS⟩⟩
    isplitl [HS]
    · unfold owns; iexists _; isplitr
      swap; · iexact HS
      ipureintro
      rw [hs]
      exact (View.read_writes_of_cover _ _ _ _ _ (scoverA c _ _ _ _ _ _ _ _ _ _ _ _ _ _ _ _ _ _ _ _ _ _ _ _ _ _ _ _ _ _ _ _ _)).trans (soutA_eq c _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverA c _ _ _ _ _ _ _ _ _ _ _ _ _ _ _ _ _ _ _ _ _ _ _ _ _ _ _ _ _ _ _ _ _)
  · rw [PhiS_pos m c t.val (fun hz => h0 (by rw [hz]))]
    unfold outAt; rw [dif_neg h0]; unfold outB
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h0 ((hcond0 t).mp hh)) (iblk m c 0 t) (iblk m c 1 t) (iblk m c 2 t) (iblk m c 3 t) (iblk m c 4 t) (iblk m c 5 t) (iblk m c 6 t) (iblk m c 7 t) (iblk m c 8 t) (supp m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, ⟨%e9, H9⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB c _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch at anything is the invariant before the first point, -/
theorem hin (c : Dev nD) : iprop((emp : sProp 𝕄) ∗ Pipeline.scopedRest spec0 c) ⊢ (dats m 0 c).Φ 0 := by
  rw [scopedRest_scratch, show (dats m 0 c).Φ 0 = iprop(∃ d, owns (c : Thread nD τ) scM fullShare d) from rfl]
  iintro ⟨-, H⟩; iexact H

/-- and after the last point the invariant gives it back, its contents forgotten. -/
theorem hout (c : Dev nD) : (dats m 0 c).Φ (Fin.last cfg0.N) ⊢ iprop((emp : sProp 𝕄) ∗ Pipeline.scopedRest spec0 c) := by
  rw [scopedRest_scratch]
  rw [show (dats m 0 c).Φ (Fin.last cfg0.N) = owns (c : Thread nD τ) scM fullShare (supp m c) from rfl]
  iintro H
  isplitr; · iempintro
  iexists _; iexact H

end Cert.KernelIdeal.Region

end
-- ==== Proof.KI.Shares.lean ====
/-
  One array behind four windows: how its full share is dealt.

  Windows 2 to 5 all read the adjacency array.  The launch hands the pipeline each DISTINCT array buffer once, whole,
  at the full share; the pipeline wants one holding per WINDOW.  The adjacency array's full share is halved and each
  half halved again, one quarter per window; every other window holds its own array at the full share (the result's
  window holds its array outright).
-/
import proofs.«140851_g42314017800850_cont_8to1_b_977_13_alg».proof.Proof.KI.Kit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer held at a share is the same buffer held at the share's two halves. -/
private theorem pointsTo_halves (ℓ : Loc nD τ sig) (q : PosShare TreeShare) (f : Buf (Elt F) ℓ) :
    (ℓ ↦{q} f : sProp 𝕄) ⊢ iprop((ℓ ↦{q.left} f) ∗ ℓ ↦{q.right} f) :=
  (pointsTo_share (ℓ := ℓ) (I := Finset.univ) (f := f) (Ix := Unit) (Name := ℕ) (U := UR sig nD τ) (Lvl := ℕ)
    (PosShare.mem_left_op_right q)).1

/-- The full share of a whole buffer dealt in four quarters: halved, and each half halved again. -/
private theorem pointsTo_quarters (ℓ : Loc nD τ sig) (f : Buf (Elt F) ℓ) :
    (ℓ ↦{fullShare} f : sProp 𝕄) ⊢
      iprop((ℓ ↦{fullShare.left.left} f) ∗ (ℓ ↦{fullShare.left.right} f) ∗ (ℓ ↦{fullShare.right.left} f) ∗ ℓ ↦{fullShare.right.right} f) := by
  iintro H
  ihave H := pointsTo_halves ℓ fullShare f $$ H
  icases H with ⟨HL, HR⟩
  ihave HL := pointsTo_halves ℓ fullShare.left f $$ HL
  icases HL with ⟨HLL, HLR⟩
  ihave HR := pointsTo_halves ℓ fullShare.right f $$ HR
  icases HR with ⟨HRL, HRR⟩
  isplitl [HLL]; · iexact HLL
  isplitl [HLR]; · iexact HLR
  isplitl [HRL]; · iexact HRL
  iexact HRR

/-- The distinct array buffers, each whole at the full share at contents `Vc`, are the proof data's per-window
    holdings at the region's entry, when the data deal the adjacency array's share in quarters to windows 2 to 5,
    hold every other input at the full share, and have each window's entry contents read off `Vc`. -/
theorem arrays_of_arrBufs {c : Dev nD} (dat : Dat τ (Elt F) Unit ℕ (UR sig nD τ) ℕ cfg0 c)
    (hq2 : dat.q 2 = fullShare.left.left) (hq3 : dat.q 3 = fullShare.left.right)
    (hq4 : dat.q 4 = fullShare.right.left) (hq5 : dat.q 5 = fullShare.right.right)
    (hq0 : dat.q 0 = fullShare) (hq1 : dat.q 1 = fullShare) (hq6 : dat.q 6 = fullShare) (hq7 : dat.q 7 = fullShare) (hq8 : dat.q 8 = fullShare)
    (Vc : (b : Ref sig .tc) → Buf (Elt F) ((c : Thread nD τ).loc b))
    (hA : ∀ w, dat.A w = Vc (Pipeline.arrRef spec0 w)) :
    (Pipeline.arrBufs (Ix := Unit) (Name := ℕ) (U := UR sig nD τ) (Lvl := ℕ) spec0 c Vc : sProp 𝕄) ⊢ dat.arrays (dat.arrAt · 0) := by
  classical
  -- The seven distinct buffers behind the ten windows, one by one.
  have hL : (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg4) ↦{fullShare} Vc main_arg4)
          ∗ (((c : Thread nD τ).loc main_arg2) ↦{fullShare} Vc main_arg2) ∗ (((c : Thread nD τ).loc main_arg3) ↦{fullShare} Vc main_arg3)
          ∗ (((c : Thread nD τ).loc main_arg1) ↦{fullShare} Vc main_arg1) ∗ (((c : Thread nD τ).loc main_v0) ↦{fullShare} Vc main_v0)
          ∗ (((c : Thread nD τ).loc main_v1) ↦{fullShare} Vc main_v1)) := by
    unfold Pipeline.arrBufs
    exact bigSep_eq_bigSepL_of_eq [main_arg0, main_arg4, main_arg2, main_arg3, main_arg1, main_v0, main_v1] (by decide) (by decide) _
  -- A window's holding: its array is a whole buffer, and its entry contents are `Vc` read at the array's buffer.
  have hw : ∀ w : Fin 10, (((cfg0.win w).arr.view.loc (c : Thread nD τ)) ↦[(cfg0.win w).arr.view.set]{dat.share w} dat.arrAt w 0 : sProp 𝕄)
      = (((c : Thread nD τ).loc (Pipeline.arrRef spec0 w)) ↦{dat.share w} Vc (Pipeline.arrRef spec0 w)) := fun w => by
    rw [(Gen.arr_whole0 w).set_eq_univ]
    show (_ ↦{_} dat.A w) = _
    rw [hA w]
  -- The share each window holds its array at: an input's is the data's own, the result's is the full share.
  have hs0 : dat.share 0 = fullShare := (if_neg (show ¬ (cfg0.win 0).isOut = true from Bool.false_ne_true)).trans hq0
  have hs1 : dat.share 1 = fullShare := (if_neg (show ¬ (cfg0.win 1).isOut = true from Bool.false_ne_true)).trans hq1
  have hs2 : dat.share 2 = fullShare.left.left := (if_neg (show ¬ (cfg0.win 2).isOut = true from Bool.false_ne_true)).trans hq2
  have hs3 : dat.share 3 = fullShare.left.right := (if_neg (show ¬ (cfg0.win 3).isOut = true from Bool.false_ne_true)).trans hq3
  have hs4 : dat.share 4 = fullShare.right.left := (if_neg (show ¬ (cfg0.win 4).isOut = true from Bool.false_ne_true)).trans hq4
  have hs5 : dat.share 5 = fullShare.right.right := (if_neg (show ¬ (cfg0.win 5).isOut = true from Bool.false_ne_true)).trans hq5
  have hs6 : dat.share 6 = fullShare := (if_neg (show ¬ (cfg0.win 6).isOut = true from Bool.false_ne_true)).trans hq6
  have hs7 : dat.share 7 = fullShare := (if_neg (show ¬ (cfg0.win 7).isOut = true from Bool.false_ne_true)).trans hq7
  have hs8 : dat.share 8 = fullShare := (if_neg (show ¬ (cfg0.win 8).isOut = true from Bool.false_ne_true)).trans hq8
  have hs9 : dat.share 9 = fullShare := if_pos (show (cfg0.win 9).isOut = true from rfl)
  rw [hL]
  unfold Dat.arrays
  rw [Gen.bigSep_W0, hw 0, hw 1, hw 2, hw 3, hw 4, hw 5, hw 6, hw 7, hw 8, hw 9, hs0, hs1, hs2, hs3, hs4, hs5, hs6, hs7, hs8, hs9]
  -- Windows 2 to 5 take a quarter each of the adjacency array's one full share; every other buffer goes to its one window.
  iintro ⟨H0, H4, H2, H3, H1, Hv0, Hv1⟩
  ihave H2 := pointsTo_quarters ((c : Thread nD τ).loc main_arg2) (Vc main_arg2) $$ H2
  icases H2 with ⟨H2a, H2b, H2c, H2d⟩
  isplitl [H0]; · iexact H0
  isplitl [H4]; · iexact H4
  isplitl [H2a]; · iexact H2a
  isplitl [H2b]; · iexact H2b
  isplitl [H2c]; · iexact H2c
  isplitl [H2d]; · iexact H2d
  isplitl [H3]; · iexact H3
  isplitl [H1]; · iexact H1
  isplitl [Hv0]; · iexact Hv0
  iexact Hv1

end Cert.KernelIdeal.Region

end
-- ==== Proof.KI.Entry.lean ====
/-
  The arrays as the region finds them.  The one host line before the region writes only the bias row (the bias
  vector recast to shape [1,128]); the six argument arrays are as launched, and entry (0, j) of the bias row is
  entry j of the bias vector.
-/
import proofs.«140851_g42314017800850_cont_8to1_b_977_13_alg».proof.Proof.KI.Kit
import Idealize.ShloMosaic.Lib.StableHlo.Run
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem V_arg0 (c : Dev nD) : V m c main_arg0 = m ((c : Thread nD τ).loc main_arg0) := by
  show StableHlo.after hostOps0 (fun b => m (c, b)) (Proc.devRef .tc main_arg0) = _
  first | rfl | (after_results <;> rfl)
theorem V_arg1 (c : Dev nD) : V m c main_arg1 = m ((c : Thread nD τ).loc main_arg1) := by
  show StableHlo.after hostOps0 (fun b => m (c, b)) (Proc.devRef .tc main_arg1) = _
  first | rfl | (after_results <;> rfl)
theorem V_arg2 (c : Dev nD) : V m c main_arg2 = m ((c : Thread nD τ).loc main_arg2) := by
  show StableHlo.after hostOps0 (fun b => m (c, b)) (Proc.devRef .tc main_arg2) = _
  first | rfl | (after_results <;> rfl)
theorem V_arg3 (c : Dev nD) : V m c main_arg3 = m ((c : Thread nD τ).loc main_arg3) := by
  show StableHlo.after hostOps0 (fun b => m (c, b)) (Proc.devRef .tc main_arg3) = _
  first | rfl | (after_results <;> rfl)
theorem V_arg4 (c : Dev nD) : V m c main_arg4 = m ((c : Thread nD τ).loc main_arg4) := by
  show StableHlo.after hostOps0 (fun b => m (c, b)) (Proc.devRef .tc main_arg4) = _
  first | rfl | (after_results <;> rfl)
theorem V_arg5 (c : Dev nD) : V m c main_arg5 = m ((c : Thread nD τ).loc main_arg5) := by
  show StableHlo.after hostOps0 (fun b => m (c, b)) (Proc.devRef .tc main_arg5) = _
  first | rfl | (after_results <;> rfl)

/-- The bias row at the region's entry is the launch bias vector recast. -/
theorem V_v0 (c : Dev nD) : V m c main_v0 = shapeCast S1x128 (m ((c : Thread nD τ).loc main_arg5)) shapeCasts_S128_S1x128 := by
  show StableHlo.after hostOps0 (fun b => m (c, b)) (Proc.devRef .tc main_v0) = _
  first | rfl | (after_results <;> rfl)

/-- Entry (0, j) of the bias row is entry j of the bias vector. -/
theorem V_v0_apply (c : Dev nD) (j : Fin 128) :
    V m c main_v0 (ix2 (0 : Fin 1) j) = m ((c : Thread nD τ).loc main_arg5) (ix1 j) := by
  rw [V_v0]
  refine (shapeCast_addUnit_apply (n := 1) ![128] _ _ (ix2 (0 : Fin 1) j)).trans ?_
  exact congrArg _ (funext fun a => by match a with | ⟨0, _⟩ => rfl)

end Cert.KernelIdeal.Region

end
-- ==== Proof.KI.Launch.lean ====
/-
  The launch: every weakly fair execution of @main terminates, each window's array ends at what the pipeline's
  write-backs make of it, and the one unscoped buffer that is no window's array (the bias vector) ends unchanged.

  One array stands behind four windows, so the launch is the library's form for shared input arrays: the distinct
  array buffers are dealt to the windows (the adjacency array's share in quarters), the scratch enters the
  invariant at anything and leaves it forgotten, and the bias vector bypasses the region.
-/
import proofs.«140851_g42314017800850_cont_8to1_b_977_13_alg».proof.Proof.KI.Data
import proofs.«140851_g42314017800850_cont_8to1_b_977_13_alg».proof.Proof.KI.Shares
import proofs.«140851_g42314017800850_cont_8to1_b_977_13_alg».proof.Proof.KI.Entry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounds algebra's launch element: every staging cell's owner at round 0 and a duty token for every transfer
    the pipeline issues. -/
def u₀ : UR sig nD τ := initOf (Pipeline.cells cfgs cellOf_inj) (Pipeline.launchToks cfgs cellOf_inj)

/-- What the run ends in: every window's array at the library's `arrAt … N`, every bypassing buffer as the region
    found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := fun c => arrays_of_arrBufs (dats m 0 c) rfl rfl rfl rfl rfl rfl rfl rfl rfl (V m c) (A_eq m c))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- info: 'Cert.KernelIdeal.Region.run_main' depends on axioms: [propext, Classical.choice, Quot.sound] -/
#guard_msgs in #print axioms run_main

/-! ## The argument arrays end unchanged -/

/-- The six argument arrays end as they began.  `x`, `W`, the adjacency array, the row sums and `y` are input
    windows' arrays, never written; the bias vector is no window's array and bypasses the region. -/
theorem kept (r : PUnit × MemSt nD τ sig (Elt F)) (h : RunPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_arg0 m c))),
   ((h c).1 7).trans (((dats m 0 c).arrAt_in 7 rfl _).trans ((A_eq m c 7).trans (V_arg1 m c))),
   ((h c).1 2).trans (((dats m 0 c).arrAt_in 2 rfl _).trans ((A_eq m c 2).trans (V_arg2 m c))),
   ((h c).1 6).trans (((dats m 0 c).arrAt_in 6 rfl _).trans ((A_eq m c 6).trans (V_arg3 m c))),
   ((h c).1 1).trans (((dats m 0 c).arrAt_in 1 rfl _).trans ((A_eq m c 1).trans (V_arg4 m c))),
   ((h c).2 main_arg5 (Pipeline.mem_restRefs_of main_arg5 rfl (by decide))).trans (V_arg5 m c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept m r h c) (run_main m ρ)

end Cert.KernelIdeal.Region

end
-- ==== Proof.KI.Pieces.lean ====
/-
  What the result's buffer holds after the body at a point, row by row.

  The four stores tile the block's 512 rows by 128: rows 0‥127 hold the first store's value, 128‥255 the second's,
  256‥383 the third's, 384‥511 the fourth's; each value is the body's pure term of the scratch (which holds `supp`
  at every point: at the first point the body has just stored it), the row-sum, `y` and bias blocks of the point,
  and the point's block of adjacency rows for that store.  Reading the pieces' canonical contents at an index of
  the k-th rectangle skips the later stores (their rectangles do not hold the index) and lands on the k-th payload.
-/
import proofs.«140851_g42314017800850_cont_8to1_b_977_13_alg».proof.Proof.KI.Data
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The zero offsets, however spelt. -/
private theorem hz2 : (![0, 0] : Fin 2 → Nat) = fun _ => 0 := by
  funext a; match a with | ⟨0, _⟩ => rfl | ⟨1, _⟩ => rfl

/-- Row `p`, column `j` of the 128-row rectangle that starts at row `o` is row `p + o`, column `j` of the block. -/
private theorem row_emb (o : Nat) (inb : ∀ a, (![o, 0] : Fin 2 → Nat) a + S128x128.size a ≤ S512x128.size a)
    (p j : Fin 128) (r : Fin 512) (hr : r.val = p.val + o) :
    (ix2 r j : S512x128.Idx) = (Rect.unit (s := S512x128) ![o, 0] S128x128.size inb).emb (ix2 p j) :=
  funext fun a => Fin.ext (by
    rw [Rect.emb_apply]
    match a with
    | ⟨0, _⟩ => show r.val = o + 1 * p.val; omega
    | ⟨1, _⟩ => show j.val = 0 + 1 * j.val; omega)

/-- A row outside `o ‥ o+127` is not in the 128-row rectangle that starts at row `o`. -/
private theorem row_not_mem (o : Nat) (inb : ∀ a, (![o, 0] : Fin 2 → Nat) a + S128x128.size a ≤ S512x128.size a)
    (j : Fin 128) (r : Fin 512) (h : r.val < o ∨ o + 128 ≤ r.val) :
    (ix2 r j : S512x128.Idx) ∉ (Rect.unit (s := S512x128) ![o, 0] S128x128.size inb).set := by
  rw [Rect.mem_set_unit]
  intro hm
  have h0 : o ≤ r.val ∧ r.val < o + 128 := hm (0 : Fin 2)
  omega

section Canon

variable {Val : EltTy → Type} [∀ e, Nonempty (Val e)] {e : EltTy}

/-- A store of 128 rows from row `o` is passed over by a read at a row outside `o ‥ o+127`, -/
private theorem canon_skip (o : Nat) (inb : ∀ a, (![o, 0] : Fin 2 → Nat) a + S128x128.size a ≤ S512x128.size a)
    (w : S128x128.Idx → Val e) (L : List (View.Piece Val S512x128 e)) (j : Fin 128) (r : Fin 512)
    (h : r.val < o ∨ o + 128 ≤ r.val) :
    View.canon (Val := Val) (⟨Rect.unit (s := S512x128) ![o, 0] S128x128.size inb, w⟩ :: L) (ix2 r j) = View.canon L (ix2 r j) :=
  View.canon_cons_of_not_mem (Val := Val) ⟨Rect.unit (s := S512x128) ![o, 0] S128x128.size inb, w⟩ L (row_not_mem o inb j r h)

/-- and answers a read at row `p + o` with its value's row `p`. -/
private theorem canon_hit (o : Nat) (inb : ∀ a, (![o, 0] : Fin 2 → Nat) a + S128x128.size a ≤ S512x128.size a)
    (w : S128x128.Idx → Val e) (L : List (View.Piece Val S512x128 e)) (p j : Fin 128) (r : Fin 512)
    (hr : r.val = p.val + o) :
    View.canon (Val := Val) (⟨Rect.unit (s := S512x128) ![o, 0] S128x128.size inb, w⟩ :: L) (ix2 r j) = w (ix2 p j) := by
  rw [row_emb o inb p j r hr]
  exact View.canon_cons_emb (Val := Val) (Rect.unit (s := S512x128) ![o, 0] S128x128.size inb) w L (ix2 p j)

variable (i384 : ∀ a, (![384, 0] : Fin 2 → Nat) a + S128x128.size a ≤ S512x128.size a)
  (i256 : ∀ a, (![256, 0] : Fin 2 → Nat) a + S128x128.size a ≤ S512x128.size a)
  (i128 : ∀ a, (![128, 0] : Fin 2 → Nat) a + S128x128.size a ≤ S512x128.size a)
  (i0 : ∀ a, (![0, 0] : Fin 2 → Nat) a + S128x128.size a ≤ S512x128.size a)
  (w3 w2 w1 w0 : S128x128.Idx → Val e) (p j : Fin 128) (r : Fin 512)

/-- Four stores of 128 rows, the last at row 384, before it 256, 128 and 0: rows 0 to 127 read the store at row 0, -/
private theorem canon4_0 (hr : r.val = p.val) :
    View.canon (Val := Val) [⟨Rect.unit (s := S512x128) ![384, 0] S128x128.size i384, w3⟩, ⟨Rect.unit (s := S512x128) ![256, 0] S128x128.size i256, w2⟩, ⟨Rect.unit (s := S512x128) ![128, 0] S128x128.size i128, w1⟩, ⟨Rect.unit (s := S512x128) ![0, 0] S128x128.size i0, w0⟩] (ix2 r j) = w0 (ix2 p j) := by
  have hp := p.isLt
  refine (canon_skip 384 i384 w3 _ j r (Or.inl (by omega))).trans ?_
  refine (canon_skip 256 i256 w2 _ j r (Or.inl (by omega))).trans ?_
  refine (canon_skip 128 i128 w1 _ j r (Or.inl (by omega))).trans ?_
  exact canon_hit 0 i0 w0 _ p j r (by omega)

/-- rows 128 to 255 the store at row 128, -/
private theorem canon4_1 (hr : r.val = p.val + 128) :
    View.canon (Val := Val) [⟨Rect.unit (s := S512x128) ![384, 0] S128x128.size i384, w3⟩, ⟨Rect.unit (s := S512x128) ![256, 0] S128x128.size i256, w2⟩, ⟨Rect.unit (s := S512x128) ![128, 0] S128x128.size i128, w1⟩, ⟨Rect.unit (s := S512x128) ![0, 0] S128x128.size i0, w0⟩] (ix2 r j) = w1 (ix2 p j) := by
  have hp := p.isLt
  refine (canon_skip 384 i384 w3 _ j r (Or.inl (by omega))).trans ?_
  refine (canon_skip 256 i256 w2 _ j r (Or.inl (by omega))).trans ?_
  exact canon_hit 128 i128 w1 _ p j r hr

/-- rows 256 to 383 the store at row 256, -/
private theorem canon4_2 (hr : r.val = p.val + 256) :
    View.canon (Val := Val) [⟨Rect.unit (s := S512x128) ![384, 0] S128x128.size i384, w3⟩, ⟨Rect.unit (s := S512x128) ![256, 0] S128x128.size i256, w2⟩, ⟨Rect.unit (s := S512x128) ![128, 0] S128x128.size i128, w1⟩, ⟨Rect.unit (s := S512x128) ![0, 0] S128x128.size i0, w0⟩] (ix2 r j) = w2 (ix2 p j) := by
  have hp := p.isLt
  refine (canon_skip 384 i384 w3 _ j r (Or.inl (by omega))).trans ?_
  exact canon_hit 256 i256 w2 _ p j r hr

/-- and rows 384 to 511 the store at row 384. -/
private theorem canon4_3 (hr : r.val = p.val + 384) :
    View.canon (Val := Val) [⟨Rect.unit (s := S512x128) ![384, 0] S128x128.size i384, w3⟩, ⟨Rect.unit (s := S512x128) ![256, 0] S128x128.size i256, w2⟩, ⟨Rect.unit (s := S512x128) ![128, 0] S128x128.size i128, w1⟩, ⟨Rect.unit (s := S512x128) ![0, 0] S128x128.size i0, w0⟩] (ix2 r j) = w3 (ix2 p j) :=
  canon_hit 384 i384 w3 _ p j r hr

end Canon

/-! ## The two runs' pieces, over any buffers and contents -/

set_option maxHeartbeats 1600000 in
/-- The first point's result, rows 0 to 127: the scratch it reads is the product it has just stored. -/
private theorem outA_rows0 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (p j : Fin 128) (r : Fin 512) (hr : r.val = p.val) :
    outA c i a1 h1 a2 h2 a3 h3 a4 h4 a5 h5 a6 h6 a7 h7 a8 h8 a9 h9 a10 h10 a11 h11 hc x1 x2 x3 x4 x5 x6 x7 x8 x9 (ix2 r j) = k0_pay5 (k0_pay3 x1 x2) x7 x8 x9 x3 (ix2 p j) := by
  unfold outA
  rw [View.read_writes_eq_canon _ _ _ (coverA c i a1 h1 a2 h2 a3 h3 a4 h4 a5 h5 a6 h6 a7 h7 a8 h8 a9 h9 a10 h10 a11 h11 hc x1 x2 x3 x4 x5 x6 x7 x8 x9)]
  unfold runA; dsimp only
  sl_unfold_words
  refine (canon4_0 _ _ _ _ _ _ _ _ p j r hr).trans ?_
  simp only [View.readAt_eq_ld, h1.read_unread, h2.read_unread, h3.read_unread, h4.read_unread, h5.read_unread, h6.read_unread, h7.read_unread, h8.read_unread, h9.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2, View.readCov_unit_zero (S := S4096x128) _ hz2]

set_option maxHeartbeats 1600000 in
/-- A later point's result, rows 0 to 127, the scratch holding `xs`. -/
private theorem outB_rows0 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) (p j : Fin 128) (r : Fin 512) (hr : r.val = p.val) :
    outB c i a1 h1 a2 h2 a3 h3 a4 h4 a5 h5 a6 h6 a7 h7 a8 h8 a9 h9 a10 h10 a11 h11 hc x1 x2 x3 x4 x5 x6 x7 x8 x9 xs (ix2 r j) = k0_pay5 xs x7 x8 x9 x3 (ix2 p j) := by
  unfold outB
  rw [View.read_writes_eq_canon _ _ _ (coverB c i a1 h1 a2 h2 a3 h3 a4 h4 a5 h5 a6 h6 a7 h7 a8 h8 a9 h9 a10 h10 a11 h11 hc x1 x2 x3 x4 x5 x6 x7 x8 x9 xs)]
  unfold runB; dsimp only
  sl_unfold_words
  refine (canon4_0 _ _ _ _ _ _ _ _ p j r hr).trans ?_
  simp only [View.readAt_eq_ld, h1.read_unread, h2.read_unread, h3.read_unread, h4.read_unread, h5.read_unread, h6.read_unread, h7.read_unread, h8.read_unread, h9.read_unread, h11.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2]

set_option maxHeartbeats 1600000 in
/-- The first point's result, rows 128 to 255: the scratch it reads is the product it has just stored. -/
private theorem outA_rows1 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (p j : Fin 128) (r : Fin 512) (hr : r.val = p.val + 128) :
    outA c i a1 h1 a2 h2 a3 h3 a4 h4 a5 h5 a6 h6 a7 h7 a8 h8 a9 h9 a10 h10 a11 h11 hc x1 x2 x3 x4 x5 x6 x7 x8 x9 (ix2 r j) = k0_pay6 (k0_pay3 x1 x2) x7 x8 x9 x4 (ix2 p j) := by
  unfold outA
  rw [View.read_writes_eq_canon _ _ _ (coverA c i a1 h1 a2 h2 a3 h3 a4 h4 a5 h5 a6 h6 a7 h7 a8 h8 a9 h9 a10 h10 a11 h11 hc x1 x2 x3 x4 x5 x6 x7 x8 x9)]
  unfold runA; dsimp only
  sl_unfold_words
  refine (canon4_1 _ _ _ _ _ _ _ _ p j r hr).trans ?_
  simp only [View.readAt_eq_ld, h1.read_unread, h2.read_unread, h3.read_unread, h4.read_unread, h5.read_unread, h6.read_unread, h7.read_unread, h8.read_unread, h9.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2, View.readCov_unit_zero (S := S4096x128) _ hz2]

set_option maxHeartbeats 1600000 in
/-- A later point's result, rows 128 to 255, the scratch holding `xs`. -/
private theorem outB_rows1 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) (p j : Fin 128) (r : Fin 512) (hr : r.val = p.val + 128) :
    outB c i a1 h1 a2 h2 a3 h3 a4 h4 a5 h5 a6 h6 a7 h7 a8 h8 a9 h9 a10 h10 a11 h11 hc x1 x2 x3 x4 x5 x6 x7 x8 x9 xs (ix2 r j) = k0_pay6 xs x7 x8 x9 x4 (ix2 p j) := by
  unfold outB
  rw [View.read_writes_eq_canon _ _ _ (coverB c i a1 h1 a2 h2 a3 h3 a4 h4 a5 h5 a6 h6 a7 h7 a8 h8 a9 h9 a10 h10 a11 h11 hc x1 x2 x3 x4 x5 x6 x7 x8 x9 xs)]
  unfold runB; dsimp only
  sl_unfold_words
  refine (canon4_1 _ _ _ _ _ _ _ _ p j r hr).trans ?_
  simp only [View.readAt_eq_ld, h1.read_unread, h2.read_unread, h3.read_unread, h4.read_unread, h5.read_unread, h6.read_unread, h7.read_unread, h8.read_unread, h9.read_unread, h11.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2]

set_option maxHeartbeats 1600000 in
/-- The first point's result, rows 256 to 383: the scratch it reads is the product it has just stored. -/
private theorem outA_rows2 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (p j : Fin 128) (r : Fin 512) (hr : r.val = p.val + 256) :
    outA c i a1 h1 a2 h2 a3 h3 a4 h4 a5 h5 a6 h6 a7 h7 a8 h8 a9 h9 a10 h10 a11 h11 hc x1 x2 x3 x4 x5 x6 x7 x8 x9 (ix2 r j) = k0_pay1 (k0_pay3 x1 x2) x7 x8 (k0_pay4 x9) x5 (ix2 p j) := by
  unfold outA
  rw [View.read_writes_eq_canon _ _ _ (coverA c i a1 h1 a2 h2 a3 h3 a4 h4 a5 h5 a6 h6 a7 h7 a8 h8 a9 h9 a10 h10 a11 h11 hc x1 x2 x3 x4 x5 x6 x7 x8 x9)]
  unfold runA; dsimp only
  sl_unfold_words
  refine (canon4_2 _ _ _ _ _ _ _ _ p j r hr).trans ?_
  simp only [View.readAt_eq_ld, h1.read_unread, h2.read_unread, h3.read_unread, h4.read_unread, h5.read_unread, h6.read_unread, h7.read_unread, h8.read_unread, h9.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2, View.readCov_unit_zero (S := S4096x128) _ hz2]

set_option maxHeartbeats 1600000 in
/-- A later point's result, rows 256 to 383, the scratch holding `xs`. -/
private theorem outB_rows2 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) (p j : Fin 128) (r : Fin 512) (hr : r.val = p.val + 256) :
    outB c i a1 h1 a2 h2 a3 h3 a4 h4 a5 h5 a6 h6 a7 h7 a8 h8 a9 h9 a10 h10 a11 h11 hc x1 x2 x3 x4 x5 x6 x7 x8 x9 xs (ix2 r j) = k0_pay1 xs x7 x8 (k0_pay4 x9) x5 (ix2 p j) := by
  unfold outB
  rw [View.read_writes_eq_canon _ _ _ (coverB c i a1 h1 a2 h2 a3 h3 a4 h4 a5 h5 a6 h6 a7 h7 a8 h8 a9 h9 a10 h10 a11 h11 hc x1 x2 x3 x4 x5 x6 x7 x8 x9 xs)]
  unfold runB; dsimp only
  sl_unfold_words
  refine (canon4_2 _ _ _ _ _ _ _ _ p j r hr).trans ?_
  simp only [View.readAt_eq_ld, h1.read_unread, h2.read_unread, h3.read_unread, h4.read_unread, h5.read_unread, h6.read_unread, h7.read_unread, h8.read_unread, h9.read_unread, h11.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2]

set_option maxHeartbeats 1600000 in
/-- The first point's result, rows 384 to 511: the scratch it reads is the product it has just stored. -/
private theorem outA_rows3 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (p j : Fin 128) (r : Fin 512) (hr : r.val = p.val + 384) :
    outA c i a1 h1 a2 h2 a3 h3 a4 h4 a5 h5 a6 h6 a7 h7 a8 h8 a9 h9 a10 h10 a11 h11 hc x1 x2 x3 x4 x5 x6 x7 x8 x9 (ix2 r j) = k0_pay2 (k0_pay3 x1 x2) x7 x8 (k0_pay4 x9) x6 (ix2 p j) := by
  unfold outA
  rw [View.read_writes_eq_canon _ _ _ (coverA c i a1 h1 a2 h2 a3 h3 a4 h4 a5 h5 a6 h6 a7 h7 a8 h8 a9 h9 a10 h10 a11 h11 hc x1 x2 x3 x4 x5 x6 x7 x8 x9)]
  unfold runA; dsimp only
  sl_unfold_words
  refine (canon4_3 _ _ _ _ _ _ _ _ p j r hr).trans ?_
  simp only [View.readAt_eq_ld, h1.read_unread, h2.read_unread, h3.read_unread, h4.read_unread, h5.read_unread, h6.read_unread, h7.read_unread, h8.read_unread, h9.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2, View.readCov_unit_zero (S := S4096x128) _ hz2]

set_option maxHeartbeats 1600000 in
/-- A later point's result, rows 384 to 511, the scratch holding `xs`. -/
private theorem outB_rows3 (c : Dev nD) (i : grid0.Coords) (a1 : Memref sig .tc .vmem S4096x128 .f32) (h1 : a1.IsWhole) (a2 : Memref sig .tc .vmem S128x128 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S512x1 .f32) (h7 : a7.IsWhole) (a8 : Memref sig .tc .vmem S512x128 .f32) (h8 : a8.IsWhole) (a9 : Memref sig .tc .vmem S1x128 .f32) (h9 : a9.IsWhole) (a10 : Memref sig .tc .vmem S512x128 .f32) (h10 : a10.IsWhole) (a11 : Memref sig .tc .vmem S4096x128 .f32) (h11 : a11.IsWhole) (hc : ¬cond0 i) (x1 : Vec F S4096x128 .f32) (x2 : Vec F S128x128 .f32) (x3 : Vec F S128x4096 .f32) (x4 : Vec F S128x4096 .f32) (x5 : Vec F S128x4096 .f32) (x6 : Vec F S128x4096 .f32) (x7 : Vec F S512x1 .f32) (x8 : Vec F S512x128 .f32) (x9 : Vec F S1x128 .f32) (xs : Vec F S4096x128 .f32) (p j : Fin 128) (r : Fin 512) (hr : r.val = p.val + 384) :
    outB c i a1 h1 a2 h2 a3 h3 a4 h4 a5 h5 a6 h6 a7 h7 a8 h8 a9 h9 a10 h10 a11 h11 hc x1 x2 x3 x4 x5 x6 x7 x8 x9 xs (ix2 r j) = k0_pay2 xs x7 x8 (k0_pay4 x9) x6 (ix2 p j) := by
  unfold outB
  rw [View.read_writes_eq_canon _ _ _ (coverB c i a1 h1 a2 h2 a3 h3 a4 h4 a5 h5 a6 h6 a7 h7 a8 h8 a9 h9 a10 h10 a11 h11 hc x1 x2 x3 x4 x5 x6 x7 x8 x9 xs)]
  unfold runB; dsimp only
  sl_unfold_words
  refine (canon4_3 _ _ _ _ _ _ _ _ p j r hr).trans ?_
  simp only [View.readAt_eq_ld, h1.read_unread, h2.read_unread, h3.read_unread, h4.read_unread, h5.read_unread, h6.read_unread, h7.read_unread, h8.read_unread, h9.read_unread, h11.read_unread, View.ld_unit_zero (S := S4096x128) hz2, View.ld_unit_zero (S := S128x128) hz2, View.ld_unit_zero (S := S128x4096) hz2, View.ld_unit_zero (S := S512x1) hz2, View.ld_unit_zero (S := S512x128) hz2, View.ld_unit_zero (S := S1x128) hz2]

/-! ## The result's block at a point, row by row -/

/-- Rows 0 to 127 of the result's block at point `t`: the first store's value. -/
theorem outAt_rows0 (c : Dev nD) (t : Fin cfg0.N) (p j : Fin 128) (r : Fin 512) (hr : r.val = p.val) :
    outAt m c t (ix2 r j) = k0_pay5 (supp m c) (iblk m c 6 t) (iblk m c 7 t) (iblk m c 8 t) (iblk m c 2 t) (ix2 p j) := by
  have hN : t.val < 8 := lt_of_lt_of_eq t.isLt (show cfg0.N = 8 from N_0)
  unfold outAt
  by_cases h0 : t.val % 8 = 0
  · -- The first point: the scratch read is the product of the `x` and `W` blocks there, which is `supp`.
    have ht : t = t0_0 := Fin.ext (by simp only [t0_0]; omega)
    have hs : supp m c = k0_pay3 (iblk m c 0 t) (iblk m c 1 t) := by rw [ht]; rfl
    rw [dif_pos h0, hs]
    exact outA_rows0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) p j r hr
  · -- A later point: the scratch holds `supp`.
    rw [dif_neg h0]
    exact outB_rows0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h0 ((hcond0 t).mp hh)) (iblk m c 0 t) (iblk m c 1 t) (iblk m c 2 t) (iblk m c 3 t) (iblk m c 4 t) (iblk m c 5 t) (iblk m c 6 t) (iblk m c 7 t) (iblk m c 8 t) (supp m c) p j r hr

/-- Rows 128 to 255 of the result's block at point `t`: the second store's value. -/
theorem outAt_rows1 (c : Dev nD) (t : Fin cfg0.N) (p j : Fin 128) (r : Fin 512) (hr : r.val = p.val + 128) :
    outAt m c t (ix2 r j) = k0_pay6 (supp m c) (iblk m c 6 t) (iblk m c 7 t) (iblk m c 8 t) (iblk m c 3 t) (ix2 p j) := by
  have hN : t.val < 8 := lt_of_lt_of_eq t.isLt (show cfg0.N = 8 from N_0)
  unfold outAt
  by_cases h0 : t.val % 8 = 0
  · -- The first point: the scratch read is the product of the `x` and `W` blocks there, which is `supp`.
    have ht : t = t0_0 := Fin.ext (by simp only [t0_0]; omega)
    have hs : supp m c = k0_pay3 (iblk m c 0 t) (iblk m c 1 t) := by rw [ht]; rfl
    rw [dif_pos h0, hs]
    exact outA_rows1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) p j r hr
  · -- A later point: the scratch holds `supp`.
    rw [dif_neg h0]
    exact outB_rows1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h0 ((hcond0 t).mp hh)) (iblk m c 0 t) (iblk m c 1 t) (iblk m c 2 t) (iblk m c 3 t) (iblk m c 4 t) (iblk m c 5 t) (iblk m c 6 t) (iblk m c 7 t) (iblk m c 8 t) (supp m c) p j r hr

/-- Rows 256 to 383 of the result's block at point `t`: the third store's value. -/
theorem outAt_rows2 (c : Dev nD) (t : Fin cfg0.N) (p j : Fin 128) (r : Fin 512) (hr : r.val = p.val + 256) :
    outAt m c t (ix2 r j) = k0_pay1 (supp m c) (iblk m c 6 t) (iblk m c 7 t) (k0_pay4 (iblk m c 8 t)) (iblk m c 4 t) (ix2 p j) := by
  have hN : t.val < 8 := lt_of_lt_of_eq t.isLt (show cfg0.N = 8 from N_0)
  unfold outAt
  by_cases h0 : t.val % 8 = 0
  · -- The first point: the scratch read is the product of the `x` and `W` blocks there, which is `supp`.
    have ht : t = t0_0 := Fin.ext (by simp only [t0_0]; omega)
    have hs : supp m c = k0_pay3 (iblk m c 0 t) (iblk m c 1 t) := by rw [ht]; rfl
    rw [dif_pos h0, hs]
    exact outA_rows2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) p j r hr
  · -- A later point: the scratch holds `supp`.
    rw [dif_neg h0]
    exact outB_rows2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h0 ((hcond0 t).mp hh)) (iblk m c 0 t) (iblk m c 1 t) (iblk m c 2 t) (iblk m c 3 t) (iblk m c 4 t) (iblk m c 5 t) (iblk m c 6 t) (iblk m c 7 t) (iblk m c 8 t) (supp m c) p j r hr

/-- Rows 384 to 511 of the result's block at point `t`: the fourth store's value. -/
theorem outAt_rows3 (c : Dev nD) (t : Fin cfg0.N) (p j : Fin 128) (r : Fin 512) (hr : r.val = p.val + 384) :
    outAt m c t (ix2 r j) = k0_pay2 (supp m c) (iblk m c 6 t) (iblk m c 7 t) (k0_pay4 (iblk m c 8 t)) (iblk m c 5 t) (ix2 p j) := by
  have hN : t.val < 8 := lt_of_lt_of_eq t.isLt (show cfg0.N = 8 from N_0)
  unfold outAt
  by_cases h0 : t.val % 8 = 0
  · -- The first point: the scratch read is the product of the `x` and `W` blocks there, which is `supp`.
    have ht : t = t0_0 := Fin.ext (by simp only [t0_0]; omega)
    have hs : supp m c = k0_pay3 (iblk m c 0 t) (iblk m c 1 t) := by rw [ht]; rfl
    rw [dif_pos h0, hs]
    exact outA_rows3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcond0 t).mpr h0) (iblk m c 0 t) (iblk m c 1 t) (iblk m c 2 t) (iblk m c 3 t) (iblk m c 4 t) (iblk m c 5 t) (iblk m c 6 t) (iblk m c 7 t) (iblk m c 8 t) p j r hr
  · -- A later point: the scratch holds `supp`.
    rw [dif_neg h0]
    exact outB_rows3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun hh => h0 ((hcond0 t).mp hh)) (iblk m c 0 t) (iblk m c 1 t) (iblk m c 2 t) (iblk m c 3 t) (iblk m c 4 t) (iblk m c 5 t) (iblk m c 6 t) (iblk m c 7 t) (iblk m c 8 t) (supp m c) p j r hr

end Cert.KernelIdeal.Region

end
-- ==== Proof.KI.Payloads.lean ====
/-
  The body's stored values read at an index, over the extended reals.

  The body stores five values.  One is the scratch's: the product of the `x` block and the `W` block, whose entry
  (k, j) is Σ_l x[k,l]·W[l,j].  Four are the result block's, 128 rows each: with `a` the adjacency rows of that
  store, `s` the scratch, and the row-sum, `y` and bias blocks of the point, entry (p, j) of the store at row
  offset o is  max (Σ_k a[p,k]·s[k,j] / sums[p+o,0] + y[p+o,j] + bias[0,j], 0).
  A matrix product into a zero accumulator is the plain sum over the contracted axis; a slice reads its source at
  the offset; a column or a row broadcast reads its source at the kept coordinate.
-/
import proofs.«140851_g42314017800850_cont_8to1_b_977_13_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Idealize.ShloMosaic Idealize.ShloMosaic.TcCoe Idealize.SL.Sem Idealize.ShloMosaic.ValueIdx
open Cert.KernelIdeal Cert.KernelIdeal.Gen

/-! ## The two matrix products

The scratch's product contracts axis 1 of the `x` block with axis 0 of the `W` block; each store's product contracts
axis 1 of the adjacency rows with axis 0 of the scratch.  For either, the operand indices at output index (p, j) and
contraction coordinate k are (p, k) and (k, j): one lemma per operand axis. -/

private theorem lhs_xw_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
private theorem lhs_xw_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
private theorem rhs_xw_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
private theorem rhs_xw_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into a zero accumulator, entry (p, j): the sum over the contracted axis of row p of the left
    factor times column j of the right one. -/
private theorem matmul_xw_apply (a : Vec Ideal S4096x128 .f32) (b : Vec Ideal S128x128 .f32) (p : Fin 4096) (j : Fin 128) :
    matmul (F := Ideal) (φ₁ := .f32) (φ₂ := .f32) dot_S4096x128_S128x128_S4096x128_1_0_0_1_n_n none a b (constant (F := Ideal) S4096x128 .f32 0x00000000#32) (ix2 p j)
      = ∑ k : Fin 128, a (ix2 p k) * b (ix2 k j) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p j) ((ValueIdx.contrEquiv1 dot_S4096x128_S128x128_S4096x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S4096x128_S128x128_S4096x128_1_0_0_1_n_n.rhsIdx (ix2 p j) ((ValueIdx.contrEquiv1 dot_S4096x128_S128x128_S4096x128_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]

private theorem lhs_as_0 (i : S128x128.Idx) (q : dot_S128x4096_S4096x128_S128x128_1_0_0_1_n_n.contr.Idx) :
    (dot_S128x4096_S4096x128_S128x128_1_0_0_1_n_n.lhsIdx i q 0).val = (i 0).val := by
  unfold DotDims.lhsIdx
  rw [dif_neg (show ¬(0 : Fin S128x4096.rank) ∈ dot_S128x4096_S4096x128_S128x128_1_0_0_1_n_n.lhsBatch by decide), dif_pos (show (0 : Fin S128x4096.rank) ∈ dot_S128x4096_S4096x128_S128x128_1_0_0_1_n_n.lhsNonContracting by decide)]
  rfl
private theorem lhs_as_1 (i : S128x128.Idx) (q : dot_S128x4096_S4096x128_S128x128_1_0_0_1_n_n.contr.Idx) :
    (dot_S128x4096_S4096x128_S128x128_1_0_0_1_n_n.lhsIdx i q 1).val = (q ⟨0, by decide⟩).val :=
  dot_S128x4096_S4096x128_S128x128_1_0_0_1_n_n.lhsIdx_val_of_single rfl i q
private theorem rhs_as_0 (i : S128x128.Idx) (q : dot_S128x4096_S4096x128_S128x128_1_0_0_1_n_n.contr.Idx) :
    (dot_S128x4096_S4096x128_S128x128_1_0_0_1_n_n.rhsIdx i q 0).val = (q ⟨0, by decide⟩).val :=
  dot_S128x4096_S4096x128_S128x128_1_0_0_1_n_n.rhsIdx_val_of_single rfl i q
private theorem rhs_as_1 (i : S128x128.Idx) (q : dot_S128x4096_S4096x128_S128x128_1_0_0_1_n_n.contr.Idx) :
    (dot_S128x4096_S4096x128_S128x128_1_0_0_1_n_n.rhsIdx i q 1).val = (i 1).val := by
  unfold DotDims.rhsIdx
  rw [dif_neg (show ¬(1 : Fin S4096x128.rank) ∈ dot_S128x4096_S4096x128_S128x128_1_0_0_1_n_n.rhsBatch by decide), dif_pos (show (1 : Fin S4096x128.rank) ∈ dot_S128x4096_S4096x128_S128x128_1_0_0_1_n_n.rhsNonContracting by decide)]
  rfl

/-- The product into a zero accumulator, entry (p, j): the sum over the contracted axis of row p of the left
    factor times column j of the right one. -/
private theorem matmul_as_apply (a : Vec Ideal S128x4096 .f32) (b : Vec Ideal S4096x128 .f32) (p : Fin 128) (j : Fin 128) :
    matmul (F := Ideal) (φ₁ := .f32) (φ₂ := .f32) dot_S128x4096_S4096x128_S128x128_1_0_0_1_n_n none a b (constant (F := Ideal) S128x128 .f32 0x00000000#32) (ix2 p j)
      = ∑ k : Fin 4096, a (ix2 p k) * b (ix2 k j) := by
  simp only [matmul]
  rw [Ideal.matmul_constant_zero_apply, ← Equiv.sum_comp (ValueIdx.contrEquiv1 dot_S128x4096_S4096x128_S128x128_1_0_0_1_n_n 4096 rfl rfl).symm]
  refine Finset.sum_congr rfl fun k _ => ?_
  have hk := ValueIdx.contrEquiv1_symm_val dot_S128x4096_S4096x128_S128x128_1_0_0_1_n_n 4096 rfl rfl k
  have el : dot_S128x4096_S4096x128_S128x128_1_0_0_1_n_n.lhsIdx (ix2 p j) ((ValueIdx.contrEquiv1 dot_S128x4096_S4096x128_S128x128_1_0_0_1_n_n 4096 rfl rfl).symm k) = ix2 p k := funext fun a => Fin.ext (by
    match a with
    | ⟨0, _⟩ => exact lhs_as_0 _ _
    | ⟨1, _⟩ => exact (lhs_as_1 _ _).trans hk)
  have er : dot_S128x4096_S4096x128_S128x128_1_0_0_1_n_n.rhsIdx (ix2 p j) ((ValueIdx.contrEquiv1 dot_S128x4096_S4096x128_S128x128_1_0_0_1_n_n 4096 rfl rfl).symm k) = ix2 k j := funext fun a => Fin.ext (by
    match a with
    | ⟨0, _⟩ => exact (rhs_as_0 _ _).trans hk
    | ⟨1, _⟩ => exact rhs_as_1 _ _)
  rw [el, er]

/-! ## Slices and broadcasts at an index -/

section Layout
variable {α : Type}

/-- A slice of `m` whole rows starting at row `o` reads, at `(p, q)`, its source at row `r = p + o`, same column. -/
private theorem slice_rows_apply {n m c : ℕ} (o : ℕ) (x : (⟨2, ![n, c]⟩ : Shape).Idx → α)
    (h : (⟨2, ![n, c]⟩ : Shape).Slices ![o, 0] ⟨2, ![m, c]⟩) (p : Fin m) (q : Fin c) (r : Fin n) (hr : r.val = p.val + o) :
    extractStridedSlice ⟨2, ![m, c]⟩ ![o, 0] x h (ix2 p q) = x (ix2 r q) := by
  refine extractStridedSlice_apply ![o, 0] x h (ix2 p q) (ix2 r q) fun ax => ?_
  match ax with
  | ⟨0, _⟩ =>
    show r.val = o + p.val
    omega
  | ⟨1, _⟩ =>
    show q.val = 0 + q.val
    omega

/-- An `[a, 1]` column broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A store's value at an index

The four stores are one term at four row offsets `o`: the product of the adjacency rows and the scratch, divided by
the row-sum column's rows o … o+127 spread over the columns, plus the `y` block's rows o … o+127, plus the bias row
spread over the rows, then the maximum with zero. -/

/-- The store at row offset `o`, entry (p, j), with `r = p + o` the row of the point's 512. -/
private theorem store_apply (o : ℕ) (hs1 : S512x1.Slices ![o, 0] S128x1) (hs2 : S512x128.Slices ![o, 0] S128x128)
    (v3 : Vec Ideal S4096x128 .f32) (v4 : Vec Ideal S512x1 .f32) (v5 : Vec Ideal S512x128 .f32) (b : FVec Ideal S1x128 .f32)
    (a : Vec Ideal S128x4096 .f32) (p j : Fin 128) (r : Fin 512) (hr : r.val = p.val + o) :
    maximumf (addf (addf (divf (matmul (F := Ideal) (φ₁ := .f32) (φ₂ := .f32) dot_S128x4096_S4096x128_S128x128_1_0_0_1_n_n none a v3 (constant (F := Ideal) S128x128 .f32 0x00000000#32))
        (broadcastTo S128x128 (extractStridedSlice S128x1 ![o, 0] v4 hs1) broadcasts_S128x1_S128x128))
        (extractStridedSlice S128x128 ![o, 0] v5 hs2)) (broadcastTo S128x128 b broadcasts_S1x128_S128x128))
        (broadcast S128x128 (Scalar.ofBits (F := Ideal) .f32 0x00000000#32)) (ix2 p j)
      = max (Ideal.div (∑ k : Fin 4096, a (ix2 p k) * v3 (ix2 k j)) (v4 (ix2 r (0 : Fin 1))) + v5 (ix2 r j) + b (ix2 (0 : Fin 1) j)) (Ideal.ofBits .f32 0x00000000#32) := by
  have e1 := matmul_as_apply a v3 p j
  have e2 : broadcastTo S128x128 (extractStridedSlice S128x1 ![o, 0] v4 hs1) broadcasts_S128x1_S128x128 (ix2 p j) = v4 (ix2 r (0 : Fin 1)) :=
    (broadcastTo_a1_ab_apply _ broadcasts_S128x1_S128x128 p j).trans (slice_rows_apply o v4 hs1 p (0 : Fin 1) r hr)
  have e3 : extractStridedSlice S128x128 ![o, 0] v5 hs2 (ix2 p j) = v5 (ix2 r j) := slice_rows_apply o v5 hs2 p j r hr
  have e4 : broadcastTo S128x128 b broadcasts_S1x128_S128x128 (ix2 p j) = b (ix2 (0 : Fin 1) j) :=
    broadcastTo_1b_ab_apply b broadcasts_S1x128_S128x128 p j
  show max (Ideal.div (matmul (F := Ideal) (φ₁ := .f32) (φ₂ := .f32) dot_S128x4096_S4096x128_S128x128_1_0_0_1_n_n none a v3 (constant (F := Ideal) S128x128 .f32 0x00000000#32) (ix2 p j))
        (broadcastTo S128x128 (extractStridedSlice S128x1 ![o, 0] v4 hs1) broadcasts_S128x1_S128x128 (ix2 p j))
      + extractStridedSlice S128x128 ![o, 0] v5 hs2 (ix2 p j) + broadcastTo S128x128 b broadcasts_S1x128_S128x128 (ix2 p j))
      (Ideal.ofBits .f32 0x00000000#32) = _
  rw [e1, e2, e3, e4]

/-- The scratch's stored value: the product of the two blocks, entry by entry. -/
theorem k0_pay3_apply (v56 : Vec Ideal S4096x128 .f32) (v57 : Vec Ideal S128x128 .f32) (k : Fin 4096) (j : Fin 128) :
    k0_pay3 (F := Ideal) v56 v57 (ix2 k j) = ∑ l : Fin 128, v56 (ix2 k l) * v57 (ix2 l j) := by
  unfold k0_pay3
  exact (congrFun (shapeCast_self _ shapeCasts_S4096x128_S4096x128) (ix2 k j)).trans (matmul_xw_apply v56 v57 k j)

/-- The first store's value at row `p`, column `j` of its 128 rows: row `r = p` of the point's 512. -/
theorem k0_pay5_apply (v3 : Vec Ideal S4096x128 .f32) (v4 : Vec Ideal S512x1 .f32) (v5 : Vec Ideal S512x128 .f32) (v6 : Vec Ideal S1x128 .f32) (v8 : Vec Ideal S128x4096 .f32)
    (p j : Fin 128) (r : Fin 512) (hr : r.val = p.val) :
    k0_pay5 (F := Ideal) v3 v4 v5 v6 v8 (ix2 p j)
      = max (Ideal.div (∑ k : Fin 4096, v8 (ix2 p k) * v3 (ix2 k j)) (v4 (ix2 r (0 : Fin 1))) + v5 (ix2 r j) + v6 (ix2 (0 : Fin 1) j)) (Ideal.ofBits .f32 0x00000000#32) := by
  unfold k0_pay5 k0_pay4
  rw [shapeCast_self v6 shapeCasts_S1x128_S1x128]
  exact store_apply 0 slices_S512x1_o0_0_S128x1 slices_S512x128_o0_0_S128x128 v3 v4 v5 v6 v8 p j r (by omega)

/-- The second store's value at row `p`, column `j` of its 128 rows: row `r = p + 128` of the point's 512. -/
theorem k0_pay6_apply (v3 : Vec Ideal S4096x128 .f32) (v4 : Vec Ideal S512x1 .f32) (v5 : Vec Ideal S512x128 .f32) (v6 : Vec Ideal S1x128 .f32) (v20 : Vec Ideal S128x4096 .f32)
    (p j : Fin 128) (r : Fin 512) (hr : r.val = p.val + 128) :
    k0_pay6 (F := Ideal) v3 v4 v5 v6 v20 (ix2 p j)
      = max (Ideal.div (∑ k : Fin 4096, v20 (ix2 p k) * v3 (ix2 k j)) (v4 (ix2 r (0 : Fin 1))) + v5 (ix2 r j) + v6 (ix2 (0 : Fin 1) j)) (Ideal.ofBits .f32 0x00000000#32) := by
  unfold k0_pay6 k0_pay4
  rw [shapeCast_self v6 shapeCasts_S1x128_S1x128]
  exact store_apply 128 slices_S512x1_o128_0_S128x1 slices_S512x128_o128_0_S128x128 v3 v4 v5 v6 v20 p j r hr

/-- The third store's value at row `p`, column `j` of its 128 rows: row `r = p + 256` of the point's 512. -/
theorem k0_pay1_apply (v3 : Vec Ideal S4096x128 .f32) (v4 : Vec Ideal S512x1 .f32) (v5 : Vec Ideal S512x128 .f32) (v7 : FVec Ideal S1x128 .f32) (v32 : Vec Ideal S128x4096 .f32)
    (p j : Fin 128) (r : Fin 512) (hr : r.val = p.val + 256) :
    k0_pay1 (F := Ideal) v3 v4 v5 v7 v32 (ix2 p j)
      = max (Ideal.div (∑ k : Fin 4096, v32 (ix2 p k) * v3 (ix2 k j)) (v4 (ix2 r (0 : Fin 1))) + v5 (ix2 r j) + v7 (ix2 (0 : Fin 1) j)) (Ideal.ofBits .f32 0x00000000#32) := by
  unfold k0_pay1
  exact store_apply 256 slices_S512x1_o256_0_S128x1 slices_S512x128_o256_0_S128x128 v3 v4 v5 v7 v32 p j r hr

/-- The fourth store's value at row `p`, column `j` of its 128 rows: row `r = p + 384` of the point's 512. -/
theorem k0_pay2_apply (v3 : Vec Ideal S4096x128 .f32) (v4 : Vec Ideal S512x1 .f32) (v5 : Vec Ideal S512x128 .f32) (v7 : FVec Ideal S1x128 .f32) (v44 : Vec Ideal S128x4096 .f32)
    (p j : Fin 128) (r : Fin 512) (hr : r.val = p.val + 384) :
    k0_pay2 (F := Ideal) v3 v4 v5 v7 v44 (ix2 p j)
      = max (Ideal.div (∑ k : Fin 4096, v44 (ix2 p k) * v3 (ix2 k j)) (v4 (ix2 r (0 : Fin 1))) + v5 (ix2 r j) + v7 (ix2 (0 : Fin 1) j)) (Ideal.ofBits .f32 0x00000000#32) := by
  unfold k0_pay2
  exact store_apply 384 slices_S512x1_o384_0_S128x1 slices_S512x128_o384_0_S128x128 v3 v4 v5 v7 v44 p j r hr

end Cert.KernelIdeal.AtIndex

end
-- ==== Proof.Spec.lean ====
/-
  The layer, as one function of the six argument arrays, index by index over the extended reals.

  With x : [4096,128], W : [128,128], adj : [4096,4096], the row sums s : [4096,1], y : [4096,128] and the
  bias b : [128]:

      support[k,j]   = Σ_l x[k,l] · W[l,j]
      aggregate[r,j] = Σ_k adj[r,k] · support[k,j]
      layer[r,j]     = max (aggregate[r,j] / s[r,0] + y[r,j] + b[j], 0)

  The quotient is the extended reals' total division, the two sums are taken in this nesting, the two additions
  associate to the left, and the zero is the float zero word read as a real.  Nothing here needs the entries to
  be finite: both programs compute exactly this nesting, so no sum is regrouped and no factor moved.
-/
import Idealize.ShloMosaic.PureOps.Ideal
import Idealize.ShloMosaic.Lib.ValueIdx

noncomputable section

namespace Cert.Spec

open Idealize.ShloMosaic Idealize.ShloMosaic.ValueIdx

/-- Row `k`, column `j` of the product x·W. -/
def support (x : FVec Ideal ⟨2, ![4096, 128]⟩ .f32) (w : FVec Ideal ⟨2, ![128, 128]⟩ .f32) (k : Fin 4096) (j : Fin 128) : EReal :=
  ∑ l : Fin 128, x (ix2 k l) * w (ix2 l j)

/-- Row `r`, column `j` of adj·(x·W). -/
def aggregate (x : FVec Ideal ⟨2, ![4096, 128]⟩ .f32) (w : FVec Ideal ⟨2, ![128, 128]⟩ .f32)
    (adj : FVec Ideal ⟨2, ![4096, 4096]⟩ .f32) (r : Fin 4096) (j : Fin 128) : EReal :=
  ∑ k : Fin 4096, adj (ix2 r k) * support x w k j

/-- The layer's entry at row `r`, column `j`. -/
def layer (x y : FVec Ideal ⟨2, ![4096, 128]⟩ .f32) (adj : FVec Ideal ⟨2, ![4096, 4096]⟩ .f32)
    (s : FVec Ideal ⟨2, ![4096, 1]⟩ .f32) (w : FVec Ideal ⟨2, ![128, 128]⟩ .f32) (b : FVec Ideal ⟨1, ![128]⟩ .f32)
    (r : Fin 4096) (j : Fin 128) : EReal :=
  max (Ideal.div (aggregate x w adj r j) (s (ix2 r (0 : Fin 1))) + y (ix2 r j) + b (ix1 j)) (Ideal.ofBits .f32 0x00000000#32)

/-- The whole result array. -/
def G (x y : FVec Ideal ⟨2, ![4096, 128]⟩ .f32) (adj : FVec Ideal ⟨2, ![4096, 4096]⟩ .f32)
    (s : FVec Ideal ⟨2, ![4096, 1]⟩ .f32) (w : FVec Ideal ⟨2, ![128, 128]⟩ .f32) (b : FVec Ideal ⟨1, ![128]⟩ .f32) :
    FVec Ideal ⟨2, ![4096, 128]⟩ .f32 :=
  fun i => layer x y adj s w b (i 0) (i 1)

theorem G_apply (x y : FVec Ideal ⟨2, ![4096, 128]⟩ .f32) (adj : FVec Ideal ⟨2, ![4096, 4096]⟩ .f32)
    (s : FVec Ideal ⟨2, ![4096, 1]⟩ .f32) (w : FVec Ideal ⟨2, ![128, 128]⟩ .f32) (b : FVec Ideal ⟨1, ![128]⟩ .f32)
    (r : Fin 4096) (j : Fin 128) : G x y adj s w b (ix2 r j) = layer x y adj s w b r j := rfl

end Cert.Spec

end
-- ==== Proof.KI.Final.lean ====
/-
  The result array after the run is the layer of the argument arrays.

  Point t writes back the 512 rows 512·t ‥ 512·t+511 of the result.  Row r of that block, r = 128·k + p, is the
  k-th store's value at row p, which reads the adjacency rows of window 2+k at point t: block 4·t+k of 128 rows,
  that is row 512·t + r of the adjacency array; the row sums' and `y`'s blocks at row r are those arrays' row
  512·t + r; the bias row is the bias vector; and the scratch holds x·W.  So the value at (r, j) is the layer's
  entry (512·t + r, j).  The eight blocks tile the 4096 rows, so the whole array ends at the layer.
-/
import proofs.«140851_g42314017800850_cont_8to1_b_977_13_alg».proof.Proof.KI.Pieces
import proofs.«140851_g42314017800850_cont_8to1_b_977_13_alg».proof.Proof.KI.Payloads
import proofs.«140851_g42314017800850_cont_8to1_b_977_13_alg».proof.Proof.KI.Entry
import proofs.«140851_g42314017800850_cont_8to1_b_977_13_alg».proof.Proof.Spec

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The layer of the launch contents of the six argument arrays, as contents of the result array. -/
def layerOf (c : Dev nD) : Buf (Elt Ideal) ((c : Thread nD τ).loc main_v1) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The windows' block indices

The grid has eight points.  At point t the four adjacency windows are on row blocks 4t, 4t+1, 4t+2
and 4t+3 (of 128 rows), the row sums', `y`'s and the result's windows on row block t (of 512 rows), each on column
block 0; the windows of `x`, `W` and the bias row stay on block (0, 0). -/

/-- The four adjacency windows at point `t`. -/
private theorem index_adj : ∀ t : Fin cfg0.N,
    win0_2.index t (0 : Fin 2) = 4 * t.val ∧ win0_2.index t (1 : Fin 2) = 0
    ∧ win0_3.index t (0 : Fin 2) = 4 * t.val + 1 ∧ win0_3.index t (1 : Fin 2) = 0
    ∧ win0_4.index t (0 : Fin 2) = 4 * t.val + 2 ∧ win0_4.index t (1 : Fin 2) = 0
    ∧ win0_5.index t (0 : Fin 2) = 4 * t.val + 3 ∧ win0_5.index t (1 : Fin 2) = 0 :=
  (by decide +kernel : ∀ t : Fin grid0.N, _)

/-- The row sums', `y`'s and the result's windows at point `t`. -/
private theorem index_rows : ∀ t : Fin cfg0.N,
    win0_6.index t (0 : Fin 2) = t.val ∧ win0_6.index t (1 : Fin 2) = 0
    ∧ win0_7.index t (0 : Fin 2) = t.val ∧ win0_7.index t (1 : Fin 2) = 0
    ∧ win0_9.index t (0 : Fin 2) = t.val ∧ win0_9.index t (1 : Fin 2) = 0 :=
  (by decide +kernel : ∀ t : Fin grid0.N, _)

/-- The windows of `x`, `W` and the bias row at point `t`. -/
private theorem index_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_8.index t (0 : Fin 2) = 0 ∧ win0_8.index t (1 : Fin 2) = 0 :=
  (by decide +kernel : ∀ t : Fin grid0.N, _)

/-! ## A window's block read at an index

A block's coordinate in its array is the block index times the block's extent plus the coordinate inside the block. -/

/-- Row `p` of window 2's block at point `t` is row `512·t + p` of the adjacency array. -/
private theorem adj_blk2 (c : Dev nD) (t : Fin cfg0.N) (p : Fin 128) (k : Fin 4096) (R : Fin 4096) (hR : R.val = 512 * t.val + 0 + p.val) :
    iblk m c 2 t (ix2 p k) = m ((c : Thread nD τ).loc main_arg2) (ix2 R k) := by
  obtain ⟨e2, f2, e3, f3, e4, f4, e5, f5⟩ := index_adj t
  show V m c main_arg2 (((cfg0.win 2).blk t).view.emb (ix2 p k)) = _
  rw [V_arg2]
  refine congrArg _ (funext fun a => Fin.ext ?_)
  match a with
  | ⟨0, _⟩ =>
    show win0_2.index t (0 : Fin 2) * 128 + 1 * p.val = R.val
    omega
  | ⟨1, _⟩ =>
    show win0_2.index t (1 : Fin 2) * 4096 + 1 * k.val = k.val
    omega

/-- Row `p` of window 3's block at point `t` is row `512·t + 128 + p` of the adjacency array. -/
private theorem adj_blk3 (c : Dev nD) (t : Fin cfg0.N) (p : Fin 128) (k : Fin 4096) (R : Fin 4096) (hR : R.val = 512 * t.val + 128 + p.val) :
    iblk m c 3 t (ix2 p k) = m ((c : Thread nD τ).loc main_arg2) (ix2 R k) := by
  obtain ⟨e2, f2, e3, f3, e4, f4, e5, f5⟩ := index_adj t
  show V m c main_arg2 (((cfg0.win 3).blk t).view.emb (ix2 p k)) = _
  rw [V_arg2]
  refine congrArg _ (funext fun a => Fin.ext ?_)
  match a with
  | ⟨0, _⟩ =>
    show win0_3.index t (0 : Fin 2) * 128 + 1 * p.val = R.val
    omega
  | ⟨1, _⟩ =>
    show win0_3.index t (1 : Fin 2) * 4096 + 1 * k.val = k.val
    omega

/-- Row `p` of window 4's block at point `t` is row `512·t + 256 + p` of the adjacency array. -/
private theorem adj_blk4 (c : Dev nD) (t : Fin cfg0.N) (p : Fin 128) (k : Fin 4096) (R : Fin 4096) (hR : R.val = 512 * t.val + 256 + p.val) :
    iblk m c 4 t (ix2 p k) = m ((c : Thread nD τ).loc main_arg2) (ix2 R k) := by
  obtain ⟨e2, f2, e3, f3, e4, f4, e5, f5⟩ := index_adj t
  show V m c main_arg2 (((cfg0.win 4).blk t).view.emb (ix2 p k)) = _
  rw [V_arg2]
  refine congrArg _ (funext fun a => Fin.ext ?_)
  match a with
  | ⟨0, _⟩ =>
    show win0_4.index t (0 : Fin 2) * 128 + 1 * p.val = R.val
    omega
  | ⟨1, _⟩ =>
    show win0_4.index t (1 : Fin 2) * 4096 + 1 * k.val = k.val
    omega

/-- Row `p` of window 5's block at point `t` is row `512·t + 384 + p` of the adjacency array. -/
private theorem adj_blk5 (c : Dev nD) (t : Fin cfg0.N) (p : Fin 128) (k : Fin 4096) (R : Fin 4096) (hR : R.val = 512 * t.val + 384 + p.val) :
    iblk m c 5 t (ix2 p k) = m ((c : Thread nD τ).loc main_arg2) (ix2 R k) := by
  obtain ⟨e2, f2, e3, f3, e4, f4, e5, f5⟩ := index_adj t
  show V m c main_arg2 (((cfg0.win 5).blk t).view.emb (ix2 p k)) = _
  rw [V_arg2]
  refine congrArg _ (funext fun a => Fin.ext ?_)
  match a with
  | ⟨0, _⟩ =>
    show win0_5.index t (0 : Fin 2) * 128 + 1 * p.val = R.val
    omega
  | ⟨1, _⟩ =>
    show win0_5.index t (1 : Fin 2) * 4096 + 1 * k.val = k.val
    omega

/-- Row `r` of the row sums' block at point `t` is row `512·t + r` of the row sums. -/
private theorem sums_blk (c : Dev nD) (t : Fin cfg0.N) (r : Fin 512) (R : Fin 4096) (hR : R.val = 512 * t.val + r.val) :
    iblk m c 6 t (ix2 r (0 : Fin 1)) = m ((c : Thread nD τ).loc main_arg3) (ix2 R (0 : Fin 1)) := by
  obtain ⟨e6, f6, e7, f7, e9, f9⟩ := index_rows t
  show V m c main_arg3 (((cfg0.win 6).blk t).view.emb (ix2 r (0 : Fin 1))) = _
  rw [V_arg3]
  refine congrArg _ (funext fun a => Fin.ext ?_)
  match a with
  | ⟨0, _⟩ =>
    show win0_6.index t (0 : Fin 2) * 512 + 1 * r.val = R.val
    omega
  | ⟨1, _⟩ =>
    show win0_6.index t (1 : Fin 2) * 1 + 1 * 0 = 0
    omega

/-- Row `r` of `y`'s block at point `t` is row `512·t + r` of `y`. -/
private theorem y_blk (c : Dev nD) (t : Fin cfg0.N) (r : Fin 512) (j : Fin 128) (R : Fin 4096) (hR : R.val = 512 * t.val + r.val) :
    iblk m c 7 t (ix2 r j) = m ((c : Thread nD τ).loc main_arg1) (ix2 R j) := by
  obtain ⟨e6, f6, e7, f7, e9, f9⟩ := index_rows t
  show V m c main_arg1 (((cfg0.win 7).blk t).view.emb (ix2 r j)) = _
  rw [V_arg1]
  refine congrArg _ (funext fun a => Fin.ext ?_)
  match a with
  | ⟨0, _⟩ =>
    show win0_7.index t (0 : Fin 2) * 512 + 1 * r.val = R.val
    omega
  | ⟨1, _⟩ =>
    show win0_7.index t (1 : Fin 2) * 128 + 1 * j.val = j.val
    omega

/-- The bias row's block at any point is the bias row, whose entry (0, j) is entry j of the bias vector. -/
private theorem bias_blk (c : Dev nD) (t : Fin cfg0.N) (j : Fin 128) :
    iblk m c 8 t (ix2 (0 : Fin 1) j) = m ((c : Thread nD τ).loc main_arg5) (ix1 j) := by
  obtain ⟨e0, f0, e1, f1, e8, f8⟩ := index_whole t
  show V m c main_v0 (((cfg0.win 8).blk t).view.emb (ix2 (0 : Fin 1) j)) = _
  refine Eq.trans (congrArg _ (funext fun a => Fin.ext ?_)) (V_v0_apply m c j)
  match a with
  | ⟨0, _⟩ =>
    show win0_8.index t (0 : Fin 2) * 1 + 1 * 0 = 0
    omega
  | ⟨1, _⟩ =>
    show win0_8.index t (1 : Fin 2) * 128 + 1 * j.val = j.val
    omega

/-- The `x` window's block at any point is the whole array. -/
private theorem x_blk (c : Dev nD) (t : Fin cfg0.N) (k : Fin 4096) (l : Fin 128) :
    iblk m c 0 t (ix2 k l) = m ((c : Thread nD τ).loc main_arg0) (ix2 k l) := by
  obtain ⟨e0, f0, e1, f1, e8, f8⟩ := index_whole t
  show V m c main_arg0 (((cfg0.win 0).blk t).view.emb (ix2 k l)) = _
  rw [V_arg0]
  refine congrArg _ (funext fun a => Fin.ext ?_)
  match a with
  | ⟨0, _⟩ =>
    show win0_0.index t (0 : Fin 2) * 4096 + 1 * k.val = k.val
    omega
  | ⟨1, _⟩ =>
    show win0_0.index t (1 : Fin 2) * 128 + 1 * l.val = l.val
    omega

/-- The `W` window's block at any point is the whole array. -/
private theorem w_blk (c : Dev nD) (t : Fin cfg0.N) (l j : Fin 128) :
    iblk m c 1 t (ix2 l j) = m ((c : Thread nD τ).loc main_arg4) (ix2 l j) := by
  obtain ⟨e0, f0, e1, f1, e8, f8⟩ := index_whole t
  show V m c main_arg4 (((cfg0.win 1).blk t).view.emb (ix2 l j)) = _
  rw [V_arg4]
  refine congrArg _ (funext fun a => Fin.ext ?_)
  match a with
  | ⟨0, _⟩ =>
    show win0_1.index t (0 : Fin 2) * 128 + 1 * l.val = l.val
    omega
  | ⟨1, _⟩ =>
    show win0_1.index t (1 : Fin 2) * 128 + 1 * j.val = j.val
    omega

/-- The scratch's product, entry by entry: x·W of the launch contents. -/
theorem supp_apply (c : Dev nD) (k : Fin 4096) (j : Fin 128) :
    supp (F := Ideal) m c (ix2 k j)
      = Cert.Spec.support (m ((c : Thread nD τ).loc main_arg0)) (m ((c : Thread nD τ).loc main_arg4)) k j := by
  unfold supp
  refine (AtIndex.k0_pay3_apply _ _ k j).trans ?_
  unfold Cert.Spec.support
  exact Finset.sum_congr rfl fun l _ => by rw [x_blk m c t0_0 k l, w_blk m c t0_0 l j]

/-! ## A row of the result's block

Row `r` of the block at point `t` is row `R = 512·t + r` of the array.  Whichever store wrote it, its value is the
quotient of Σ_k a[k]·supp[k,j] by the row sums' block at row r, plus `y`'s block at (r, j), plus the bias entry;
with `a` row R of the adjacency array this is the layer's entry (R, j). -/

/-- The bias row under the cast to its own shape is still the bias vector. -/
private theorem bias_cast_blk (c : Dev nD) (t : Fin cfg0.N) (j : Fin 128) :
    k0_pay4 (iblk m c 8 t) (ix2 (0 : Fin 1) j) = m ((c : Thread nD τ).loc main_arg5) (ix1 j) :=
  (congrFun (shapeCast_self (iblk m c 8 t) shapeCasts_S1x128_S1x128) (ix2 (0 : Fin 1) j)).trans (bias_blk m c t j)

/-- A store's value at block row `r`, read from the arrays, is the layer's entry at array row `R`. -/
private theorem layer_of_row (c : Dev nD) (t : Fin cfg0.N) (r : Fin 512) (j : Fin 128) (R : Fin 4096) (hR : R.val = 512 * t.val + r.val)
    (a : Fin 4096 → EReal) (ha : ∀ k, a k = m ((c : Thread nD τ).loc main_arg2) (ix2 R k))
    (bias : EReal) (hb : bias = m ((c : Thread nD τ).loc main_arg5) (ix1 j)) :
    max (Ideal.div (∑ k : Fin 4096, a k * supp m c (ix2 k j)) (iblk m c 6 t (ix2 r (0 : Fin 1))) + iblk m c 7 t (ix2 r j) + bias)
        (Ideal.ofBits .f32 0x00000000#32)
      = layerOf m c (ix2 R j) := by
  have hs : (∑ k : Fin 4096, a k * supp m c (ix2 k j))
      = Cert.Spec.aggregate (m ((c : Thread nD τ).loc main_arg0)) (m ((c : Thread nD τ).loc main_arg4)) (m ((c : Thread nD τ).loc main_arg2)) R j := by
    unfold Cert.Spec.aggregate
    exact Finset.sum_congr rfl fun k _ => by rw [ha k, supp_apply m c k j]
  rw [hs, sums_blk m c t r R hR, y_blk m c t r j R hR, hb]
  rfl

/-- Row `r` of the result window's block at point `t` is row `512·t + r` of the array. -/
private theorem out_blk (c : Dev nD) (t : Fin cfg0.N) (f : Buf (Elt Ideal) ((c : Thread nD τ).loc main_v1)) (r : Fin 512) (j : Fin 128)
    (R : Fin 4096) (hR : R.val = 512 * t.val + r.val) :
    ((cfg0.win 9).blk t).view.read (Elt Ideal) f (ix2 r j) = f (ix2 R j) := by
  obtain ⟨e6, f6, e7, f7, e9, f9⟩ := index_rows t
  show f (((cfg0.win 9).blk t).view.emb (ix2 r j)) = _
  refine congrArg _ (funext fun a => Fin.ext ?_)
  match a with
  | ⟨0, _⟩ =>
    show win0_9.index t (0 : Fin 2) * 512 + 1 * r.val = R.val
    omega
  | ⟨1, _⟩ =>
    show win0_9.index t (1 : Fin 2) * 128 + 1 * j.val = j.val
    omega

/-- What point `t` writes back is block `t` of the layer. -/
theorem flushed9_eq (c : Dev nD) (t : Fin cfg0.N) :
    (dats (F := Ideal) m 0 c).flushed 9 t = ((cfg0.win 9).blk t).view.read (Elt Ideal) (layerOf m c) := by
  show (cfg0.win 9).cut (grid0.coords t) ((dats (F := Ideal) m 0 c).after 9 t) = _
  rw [after9]
  funext y
  obtain ⟨r, j, rfl⟩ : ∃ (r : Fin 512) (j : Fin 128), y = ix2 r j := ⟨y 0, y 1, eq_ix2 y⟩
  have ht : t.val < 8 := lt_of_lt_of_eq t.isLt N_0
  have hr : r.val < 512 := r.isLt
  obtain ⟨R, hR⟩ : ∃ R : Fin 4096, R.val = 512 * t.val + r.val := ⟨⟨512 * t.val + r.val, by omega⟩, rfl⟩
  rw [out_blk c t (layerOf m c) r j R hR]
  show outAt m c t (ix2 r j) = _
  by_cases h1 : r.val < 128
  · obtain ⟨p, hp⟩ : ∃ p : Fin 128, r.val = p.val := ⟨⟨r.val, h1⟩, rfl⟩
    rw [outAt_rows0 m c t p j r hp, AtIndex.k0_pay5_apply _ _ _ _ _ p j r hp]
    exact layer_of_row m c t r j R hR _ (fun k => adj_blk2 m c t p k R (by omega)) _ (bias_blk m c t j)
  by_cases h2 : r.val < 256
  · obtain ⟨p, hp⟩ : ∃ p : Fin 128, r.val = p.val + 128 := ⟨⟨r.val - 128, by omega⟩, by show r.val = r.val - 128 + 128; omega⟩
    rw [outAt_rows1 m c t p j r hp, AtIndex.k0_pay6_apply _ _ _ _ _ p j r hp]
    exact layer_of_row m c t r j R hR _ (fun k => adj_blk3 m c t p k R (by omega)) _ (bias_blk m c t j)
  by_cases h3 : r.val < 384
  · obtain ⟨p, hp⟩ : ∃ p : Fin 128, r.val = p.val + 256 := ⟨⟨r.val - 256, by omega⟩, by show r.val = r.val - 256 + 256; omega⟩
    rw [outAt_rows2 m c t p j r hp, AtIndex.k0_pay1_apply _ _ _ _ _ p j r hp]
    exact layer_of_row m c t r j R hR _ (fun k => adj_blk4 m c t p k R (by omega)) _ (bias_cast_blk m c t j)
  · obtain ⟨p, hp⟩ : ∃ p : Fin 128, r.val = p.val + 384 := ⟨⟨r.val - 384, by omega⟩, by show r.val = r.val - 384 + 384; omega⟩
    rw [outAt_rows3 m c t p j r hp, AtIndex.k0_pay2_apply _ _ _ _ _ p j r hp]
    exact layer_of_row m c t r j R hR _ (fun k => adj_blk5 m c t p k R (by omega)) _ (bias_cast_blk m c t j)

/-- An index of the result array is in point `t`'s block iff each coordinate is in the block's range on its axis. -/
private theorem mem_blk9 (t : Fin cfg0.N) (i : S4096x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v1).slice (win0_9.rect t)).set ↔ _
  rw [View.set_slice_whole, Rect.mem_set_unit]
  exact Iff.rfl

/-- Every index of the result array is in some point's block. -/
theorem covered9 (c : Dev nD) (i : ((cfg0.win 9).arr.view.loc (c.tc : Thread nD τ)).2.ty.Idx) :
    ∃ t : Fin cfg0.N, (cfg0.win 9).flush t = true ∧ i ∈ ((cfg0.win 9).blk t).view.set := by
  revert i
  show ∀ i : S4096x128.Idx, ∃ t : Fin cfg0.N, (cfg0.win 9).flush t = true ∧ i ∈ ((cfg0.win 9).blk t).view.set
  intro i
  have hi0 : (i 0).val < 4096 := (i 0).isLt
  have hi1 : (i 1).val < 128 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  obtain ⟨e6, f6, e7, f7, e9, f9⟩ := index_rows t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 128 ≤ (i 1).val ∧ (i 1).val < win0_9.index t (1 : Fin 2) * 128 + 128
    omega

/-- The result array after the run. -/
theorem final9 (c : Dev nD) : (dats (F := Ideal) m 0 c).arrAt 9 cfg0.N = layerOf m c :=
  (dats (F := Ideal) m 0 c).arrAt_eq_of_cover 9 (layerOf m c) (fun t _ => flushed9_eq m c t) (covered9 c)

end Cert.KernelIdeal.Region

end
-- ==== Proof.KI.Value.lean ====
/-
  The idealized kernel's run, with its result named: the result array ends at the layer of the launch contents of
  the six argument arrays, and those end unchanged.
-/
import proofs.«140851_g42314017800850_cont_8to1_b_977_13_alg».proof.Proof.KI.Launch
import proofs.«140851_g42314017800850_cont_8to1_b_977_13_alg».proof.Proof.KI.Final

noncomputable section

namespace Cert.KernelIdeal.Region

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v1) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 9).trans (final9 m c), kept m r h c⟩) (run_main (F := Ideal) m ρ)

end Cert.KernelIdeal.Region

end
-- ==== Proof.RefAtIndex.lean ====
/-
  The reference's result is the layer (Spec.lean), index by index.

  The reference is eleven host operations: the product x·W, the product adj·(x·W), the row sums broadcast along the
  lanes, the quotient, the sum with y, the bias broadcast to a row and then along the rows, the second sum, and the
  maximum with a zero splat.  Each is read at an index; the two products become sums over the contracted axis.
-/
import proofs.«140851_g42314017800850_cont_8to1_b_977_13_alg».proof.Proof.Gen.ReferenceIdeal.Run
import proofs.«140851_g42314017800850_cont_8to1_b_977_13_alg».proof.Proof.Gen.ReferenceIdeal.Read
import proofs.«140851_g42314017800850_cont_8to1_b_977_13_alg».proof.Proof.Spec
import Idealize.ShloMosaic.Lib.ValueIdx
import Idealize.ShloMosaic.PureOps.Ideal.Laws

noncomputable section

namespace Cert.ReferenceIdeal.AtIndex

open Idealize.ShloMosaic Idealize.ShloMosaic.TcCoe Idealize.SL.Sem Idealize.ShloMosaic.ValueIdx
open Cert.ReferenceIdeal Cert.ReferenceIdeal.Gen Cert.ReferenceIdeal.Read

/-- The left index of the outer product: row `r` of the adjacency, column `k`. -/
private theorem lidx1 (r : Fin 4096) (j : Fin 128) (k : Fin 4096) :
    lidx_main_v1 (ix2 r j) k = ix2 r k :=
  funext fun a => Fin.ext (by match a with | ⟨0, _⟩ => rfl | ⟨1, _⟩ => rfl)

/-- The right index of the outer product: row `k` of the inner product, column `j`. -/
private theorem ridx1 (r : Fin 4096) (j : Fin 128) (k : Fin 4096) :
    ridx_main_v1 (ix2 r j) k = ix2 k j :=
  funext fun a => Fin.ext (by match a with | ⟨0, _⟩ => rfl | ⟨1, _⟩ => rfl)

/-- The left index of the inner product: row `k` of x, column `l`. -/
private theorem lidx0 (k : Fin 4096) (j : Fin 128) (l : Fin 128) :
    lidx_main_v0 (ix2 k j) l = ix2 k l :=
  funext fun a => Fin.ext (by match a with | ⟨0, _⟩ => rfl | ⟨1, _⟩ => rfl)

/-- The right index of the inner product: row `l` of W, column `j`. -/
private theorem ridx0 (k : Fin 4096) (j : Fin 128) (l : Fin 128) :
    ridx_main_v0 (ix2 k j) l = ix2 l j :=
  funext fun a => Fin.ext (by match a with | ⟨0, _⟩ => rfl | ⟨1, _⟩ => rfl)

/-- The row sums are read at row `r`, column 0, whatever the lane. -/
private theorem idx2 (r : Fin 4096) (j : Fin 128) :
    idx_main_v2 (ix2 r j) = ix2 r (0 : Fin 1) :=
  funext fun a => Fin.ext (by match a with | ⟨0, _⟩ => rfl | ⟨1, _⟩ => rfl)

/-- The bias is read at the lane `j`, whatever the row. -/
private theorem idx56 (r : Fin 4096) (j : Fin 128) :
    idx_main_v5 (idx_main_v6 (ix2 r j)) = ix1 j :=
  funext fun a => Fin.ext (by match a with | ⟨0, _⟩ => rfl)

/-- The last stage of the reference, as a function of the six argument arrays, is the layer. -/
theorem ref_eq (x0 x1 : (⟨S4096x128, .f32⟩ : BufTy).Contents (Elt Ideal)) (x2 : (⟨S4096x4096, .f32⟩ : BufTy).Contents (Elt Ideal))
    (x3 : (⟨S4096x1, .f32⟩ : BufTy).Contents (Elt Ideal)) (x4 : (⟨S128x128, .f32⟩ : BufTy).Contents (Elt Ideal))
    (x5 : (⟨S128, .f32⟩ : BufTy).Contents (Elt Ideal)) :
    val_main_v8 (F := Ideal) x0 x1 x2 x3 x4 x5 = Cert.Spec.G x0 x1 x2 x3 x4 x5 := by
  -- Compare the two arrays entry by entry, at row `r` and lane `j`.
  funext i
  obtain ⟨r, j, rfl⟩ : ∃ (r : Fin 4096) (j : Fin 128), i = ix2 r j := ⟨i 0, i 1, eq_ix2 i⟩
  -- Read each stage at the index: maximum, the two sums, the quotient, the outer product as a sum over `k`,
  -- the row sum at column 0, the bias at lane `j`, and the zero splat.
  rw [val_main_v8_apply, val_main_v7_apply, val_main_v4_apply, val_main_v3_apply, val_main_v1_apply,
    val_main_v2_apply, val_main_v6_apply, val_main_v5_apply, val_main_call0_v0_apply, val_main_call0_cst_apply,
    idx2, idx56]
  -- Under the sum over `k`, the inner product is the sum over `l` of x[k,l] · W[l,j].
  simp only [val_main_v0_apply, lidx1, ridx1, lidx0, ridx0]
  -- Both sides are now the same nesting: max (Σ_k adj[r,k] · Σ_l x[k,l] · W[l,j] / s[r,0] + y[r,j] + b[j]) 0.
  rfl

end Cert.ReferenceIdeal.AtIndex

end
-- ==== Proof.lean ====
/-
  Equivalence, over the extended reals, of a fused graph-convolution kernel and its plain reference:

      out = max (adj · (x · W) / s + y + b, 0),   x, y : [4096,128], adj : [4096,4096], s : [4096,1], W : [128,128], b : [128].

  The kernel is one pipelined region over 8 grid points.  At the first point it computes the product x·W once into a
  scratch buffer it keeps; at every point it multiplies four blocks of 128 adjacency rows (four windows on the one
  adjacency array) by that product, divides each row by its row sum, adds y's rows and the bias, clamps at zero, and
  stores the four results into the point's block of 512 result rows.  The reference computes the two products whole.

  Both programs nest the two sums the same way, associate the two additions the same way and divide by the same
  total division, so the results agree entry by entry with no regrouping: no finiteness of the inputs is used.

  The pieces: Spec.lean (the layer as one function); RefAtIndex.lean (the reference is the layer); KI/ (the
  region's proof data, the body's runs at the first and the later points, the dealing of the shared array among its
  four windows, the launch, the body's stored values at an index, what the result's buffer holds row by row, and
  that the eight written-back blocks make the result array the layer); K/ (the word-level program's frame, the
  same modules at the other namespace).  The ideal pass rewrote nothing, so the preservation claim is empty.
-/
import proofs.«140851_g42314017800850_cont_8to1_b_977_13_alg».proof.Defs
import proofs.«140851_g42314017800850_cont_8to1_b_977_13_alg».proof.Proof.Gen.Kernel
import proofs.«140851_g42314017800850_cont_8to1_b_977_13_alg».proof.Proof.Gen.KernelIdeal
import proofs.«140851_g42314017800850_cont_8to1_b_977_13_alg».proof.Proof.Gen.ReferenceIdeal
import proofs.«140851_g42314017800850_cont_8to1_b_977_13_alg».proof.Proof.Gen.Pre_finite_inputs
import proofs.«140851_g42314017800850_cont_8to1_b_977_13_alg».proof.Proof.Gen.ReferenceIdeal.Run
import proofs.«140851_g42314017800850_cont_8to1_b_977_13_alg».proof.Proof.Gen.ReferenceIdeal.Read
import proofs.«140851_g42314017800850_cont_8to1_b_977_13_alg».proof.Proof.K.Launch
import proofs.«140851_g42314017800850_cont_8to1_b_977_13_alg».proof.Proof.KI.Value
import proofs.«140851_g42314017800850_cont_8to1_b_977_13_alg».proof.Proof.RefAtIndex
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Region.frame (F := Bits) m ρ

theorem frame_ki : Cert.frame_KernelIdeal := fun m ρ _ => Cert.KernelIdeal.Region.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the (agreeing) argument arrays in their result. -/
theorem algebraic : Cert.algebraic_KernelIdeal_ReferenceIdeal := by
  intro m ρ m' ρ' _ hagree
  refine ⟨fun c => Cert.KernelIdeal.Region.layerOf m c, Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.AtIndex.ref_eq,
    (hagree c).1, (hagree c).2.1, (hagree c).2.2.1, (hagree c).2.2.2.1, (hagree c).2.2.2.2.1, (hagree c).2.2.2.2.2]
  rfl

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
